-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500x128 : Shape := ⟨2, ![500, 128]⟩
abbrev S128x128 : Shape := ⟨2, ![128, 128]⟩
abbrev S128 : Shape := ⟨1, ![128]⟩
abbrev S800000 : Shape := ⟨1, ![800000]⟩
abbrev S1024 : Shape := ⟨1, ![1024]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg11 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S800000 .f32) (main_arg8 : FVec F S128 .f32) (main_arg9 : FVec F S128 .f32) (main_arg10 : FVec F S128 .f32) (main_arg11 : FVec F S128 .f32) (main_v33 : IVec S_ 1) : IVec S_ 1 :=
  let main_v34 : FVec F S800000 .f32 := Host.absf main_arg7
  let main_cst_12 : FVec F S_ .f32 := constant S_ .f32 0x7F800000#32
  let main_v35 : FVec F S800000 .f32 := broadcastInDim S800000 ![] bcast_S_S800000 main_cst_12
  let main_v36 : IVec S800000 1 := cmpf .olt main_v34 main_v35
  let main_c_13 : IVec S_ 1 := constantI S_ 1 1#1
  let main_v37 : IVec S_ 1 := (fun x v => Host.reduce IntOp.andi x v reducesTo_S800000_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_v48 main_v49 main_v50

def fn_part1 {F : FTy → Type} [FloatOps F] (main_arg4 : FVec F S128x128 .f32) (main_arg5 : FVec F S128 .f32) (main_arg6 : FVec F S128x128 .f32) (main_arg7 : FVec F S800000 .f32) (main_arg8 : FVec F S128 .f32) (main_arg9 : FVec F S128 .f32) (main_arg10 : FVec F S128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S500x128 .f32) (main_arg2 : FVec F S128x128 .f32) (main_arg3 : FVec F S128 .f32) (main_arg4 : FVec F S128x128 .f32) (main_arg5 : FVec F S128 .f32) (main_arg6 : FVec F S128x128 .f32) (main_arg7 : FVec F S800000 .f32) (main_arg8 : FVec F S128 .f32) (main_arg9 : FVec F S128 .f32) (main_arg10 : FVec F S128 .f32) (main_arg11 : FVec F S128 .f32) (main_arg12 : IVec S1024 32) (main_arg13 : IVec S1024 32) (main_arg14 : IVec S50000 32) (main_arg15 : IVec S800000 32) (main_arg16 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500x128 .f32 := Host.absf main_arg1
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S500x128 : Shape := ⟨2, ![500, 128]⟩
abbrev S128x128 : Shape := ⟨2, ![128, 128]⟩
abbrev S128 : Shape := ⟨1, ![128]⟩
abbrev S800000 : Shape := ⟨1, ![800000]⟩
abbrev S1024 : Shape := ⟨1, ![1024]⟩
abbrev S50000 : Shape := ⟨1, ![50000]⟩
abbrev S_ : Shape := ⟨0, ![]⟩
abbrev S50000x1 : Shape := ⟨2, ![50000, 1]⟩
abbrev S5000x128 : Shape := ⟨2, ![5000, 128]⟩
abbrev S800000x1 : Shape := ⟨2, ![800000, 1]⟩
abbrev S800000x128 : Shape := ⟨2, ![800000, 128]⟩
abbrev S1x128 : Shape := ⟨2, ![1, 128]⟩
abbrev S1024x1 : Shape := ⟨2, ![1024, 1]⟩
abbrev S1024x128 : Shape := ⟨2, ![1024, 128]⟩
abbrev S51200x128 : Shape := ⟨2, ![51200, 128]⟩
abbrev S1024x51200 : Shape := ⟨2, ![1024, 51200]⟩
abbrev S2048x128 : Shape := ⟨2, ![2048, 128]⟩
abbrev S1024x2048 : Shape := ⟨2, ![1024, 2048]⟩
abbrev S1024x50000 : Shape := ⟨2, ![1024, 50000]⟩

abbrev nBuf : Space → Nat
  | .hbm => 120
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S500x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S800000, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1024, .i32⟩
  | .hbm, ⟨13, _⟩ => ⟨S1024, .i32⟩
  | .hbm, ⟨14, _⟩ => ⟨S50000, .i32⟩
  | .hbm, ⟨15, _⟩ => ⟨S800000, .i32⟩
  | .hbm, ⟨16, _⟩ => ⟨S800000, .i32⟩
  | .hbm, ⟨17, _⟩ => ⟨S_, .i32⟩
  | .hbm, ⟨18, _⟩ => ⟨S50000, .i32⟩
  | .hbm, ⟨19, _⟩ => ⟨S50000, .i1⟩
  | .hbm, ⟨20, _⟩ => ⟨S_, .i32⟩
  | .hbm, ⟨21, _⟩ => ⟨S50000, .i32⟩
  | .hbm, ⟨22, _⟩ => ⟨S50000, .i32⟩
  | .hbm, ⟨23, _⟩ => ⟨S50000, .i32⟩
  | .hbm, ⟨24, _⟩ => ⟨S50000x1, .i32⟩
  | .hbm, ⟨25, _⟩ => ⟨S50000x128, .f32⟩
  | .hbm, ⟨26, _⟩ => ⟨S50000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x1, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x1, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S1024, .i32⟩
  | .hbm, ⟨75, _⟩ => ⟨S1024, .i1⟩
  | .hbm, ⟨76, _⟩ => ⟨S_, .i32⟩
  | .hbm, ⟨77, _⟩ => ⟨S1024, .i32⟩
  | .hbm, ⟨78, _⟩ => ⟨S1024, .i32⟩
  | .hbm, ⟨79, _⟩ => ⟨S1024, .i32⟩
  | .hbm, ⟨80, _⟩ => ⟨S1024x1, .i32⟩
  | .hbm, ⟨81, _⟩ => ⟨S1024x128, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S1024x128, .f32⟩
  | .hbm, ⟨89, _⟩ => ⟨S1024x128, .f32⟩
  | .hbm, ⟨90, _⟩ => ⟨S1x128, .f32⟩
  | .hbm, ⟨91, _⟩ => ⟨S1024x128, .f32⟩
  | .hbm, ⟨92, _⟩ => ⟨S1024x128, .f32⟩
  | .hbm, ⟨93, _⟩ => ⟨S_, .i32⟩
  | .hbm, ⟨94, _⟩ => ⟨S1024, .i32⟩
  | .hbm, ⟨95, _⟩ => ⟨S1024, .i1⟩
  | .hbm, ⟨96, _⟩ => ⟨S_, .i32⟩
  | .hbm, ⟨97, _⟩ => ⟨S1024, .i32⟩
  | .hbm, ⟨98, _⟩ => ⟨S1024, .i32⟩
  | .hbm, ⟨99, _⟩ => ⟨S1024, .i32⟩
  | .hbm, ⟨100, _⟩ => ⟨S1024x1, .i32⟩
  | .hbm, ⟨101, _⟩ => ⟨S1024x128, .f32⟩
  | .hbm, ⟨102, _⟩ => ⟨S1024x128, .f32⟩
  | .hbm, ⟨103, _⟩ => ⟨S1024x128, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S128, .f32⟩
  | .hbm, ⟨108, _⟩ => ⟨S128, .f32⟩
  | .hbm, ⟨109, _⟩ => ⟨S1x128, .f32⟩
  | .hbm, ⟨110, _⟩ => ⟨S1024x128, .f32⟩
  | .hbm, ⟨111, _⟩ => ⟨S1024x128, .f32⟩
  | .hbm, ⟨112, _⟩ => ⟨S1x128, .f32⟩
  | .hbm, ⟨113, _⟩ => ⟨S1024x128, .f32⟩
  | .hbm, ⟨114, _⟩ => ⟨S1024x128, .f32⟩
  | .hbm, ⟨115, _⟩ => ⟨S_, .i32⟩
  | .hbm, ⟨116, _⟩ => ⟨S_, .f32⟩
  | .hbm, ⟨117, _⟩ => ⟨S51200x128, .f32⟩
  | .hbm, ⟨118, _⟩ => ⟨S1024x51200, .f32⟩
  | .hbm, ⟨119, _⟩ => ⟨S1024x50000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S1024x128, .f32⟩
  | .local _ .vmem, ⟨11, _⟩ => ⟨S2048x128, .f32⟩
  | .local _ .vmem, ⟨12, _⟩ => ⟨S2048x128, .f32⟩
  | .local _ .vmem, ⟨13, _⟩ => ⟨S1024x2048, .f32⟩
  | .local _ .vmem, ⟨14, _⟩ => ⟨S1024x2048, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call0_cst : Ref sig .tc := ⟨.hbm, 46, rfl⟩
abbrev main_call0_v0 : Ref sig .tc := ⟨.hbm, 47, rfl⟩
abbrev main_v24 : Ref sig .tc := ⟨.hbm, 48, rfl⟩
abbrev main_v25 : Ref sig .tc := ⟨.hbm, 49, rfl⟩
abbrev main_c_3 : Ref sig .tc := ⟨.hbm, 50, rfl⟩
abbrev main_v26 : Ref sig .tc := ⟨.hbm, 51, rfl⟩
abbrev main_v27 : Ref sig .tc := ⟨.hbm, 52, rfl⟩
abbrev main_c_4 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call1_cst : Ref sig .tc := ⟨.hbm, 69, rfl⟩
abbrev main_call1_v0 : Ref sig .tc := ⟨.hbm, 70, rfl⟩
abbrev main_v42 : Ref sig .tc := ⟨.hbm, 71, rfl⟩
abbrev main_v43 : Ref sig .tc := ⟨.hbm, 72, rfl⟩
abbrev main_c_6 : Ref sig .tc := ⟨.hbm, 73, rfl⟩
abbrev main_v44 : Ref sig .tc := ⟨.hbm, 74, rfl⟩
abbrev main_v45 : Ref sig .tc := ⟨.hbm, 75, rfl⟩
abbrev main_c_7 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_8 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_9 : Ref sig .tc := ⟨.hbm, 93, rfl⟩
abbrev main_v61 : Ref sig .tc := ⟨.hbm, 94, rfl⟩
abbrev main_v62 : Ref sig .tc := ⟨.hbm, 95, rfl⟩
abbrev main_c_10 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_11 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_12 : Ref sig .tc := ⟨.hbm, 115, rfl⟩
abbrev main_call2_v0 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S128 : S_.BroadcastsInDim S128 (![] : Fin 0 → Fin S128.rank)
  bcast_S1x128_S1024x128_0_1 : S1x128.BroadcastsInDim S1024x128 (![0, 1] : Fin 2 → Fin S1024x128.rank)
  pads_S50000x128_S51200x128_012000_000 : S50000x128.Pads (![0, 0] : Fin 2 → Nat) ![1200, 0] ![0, 0] S51200x128
  h_S_ : 0 < S_.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x2048_S1024x2048_0_0 : ∀ a, (![0, 0] : Fin 2 → Nat) a + S1024x2048.size a ≤ S1024x2048.size a
  h_S1024x2048 : 0 < S1024x2048.numel
  slices_S1024x51200_S1024x50000_0_0 : S1024x51200.Slices ![0, 0] S1024x50000
  gather_S50000x128_S50000x1_S50000x128_1_0_n_n_0_1_1128_wf : GatherDims.WF S50000x128 S50000x1 S50000x128 [1] [0] [] [0] [] 1 ![1, 128]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S1024x1_S1024x128_1_0_n_n_0_1_1128_wf : GatherDims.WF S50000x128 S1024x1 S1024x128 [1] [0] [] [0] [] 1 ![1, 128]
  gather_S500x128_S1024x1_S1024x128_1_0_n_n_0_1_1128_wf : GatherDims.WF S500x128 S1024x1 S1024x128 [1] [0] [] [0] [] 1 ![1, 128]
  dot_S1024x128_S128x128_S1024x128_1_0_0_1_n_n_wf : DotDims.WF S1024x128 S128x128 S1024x128 [1] [0] [0] [1] [] []
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S1024x128.size a
  hwx2_0 : ∀ i : grid2.Coords, EltTy.bits .f32 = 32 ∨ (Rect.block (s := S1024x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S51200x128.size a
  hwx2_1 : ∀ i : grid2.Coords, EltTy.bits .f32 = 32 ∨ (Rect.block (s := S51200x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S1024x51200.size a
  hwx2_2 : ∀ i : grid2.Coords, EltTy.bits .f32 = 32 ∨ (Rect.block (s := S1024x51200) S1024x2048.size (cc2_transform_2 i) (hinb2_2 i)).WholeWords (EltTy.packing .f32)

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S1024x1_S1024x128_1_0_n_n_0_1_1128 : GatherDims S50000x128 S1024x1 S1024x128 where
  offsetDims := [1]
  collapsedSliceDims := [0]
  operandBatchingDims := []
  startIndicesBatchingDims := []
  startIndexMap := [0]
  indexVectorDim := 1
  sliceSizes := ![1, 128]
  wf := gather_S50000x128_S1024x1_S1024x128_1_0_n_n_0_1_1128_wf
def gather_S500x128_S1024x1_S1024x128_1_0_n_n_0_1_1128 : GatherDims S500x128 S1024x1 S1024x128 where
  offsetDims := [1]
  collapsedSliceDims := [0]
  operandBatchingDims := []
  startIndicesBatchingDims := []
  startIndexMap := [0]
  indexVectorDim := 1
  sliceSizes := ![1, 128]
  wf := gather_S500x128_S1024x1_S1024x128_1_0_n_n_0_1_1128_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_v6) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v79) S1024x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v80) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v81) S1024x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S500x128 : Shape := ⟨2, ![500, 128]⟩
abbrev S128x128 : Shape := ⟨2, ![128, 128]⟩
abbrev S128 : Shape := ⟨1, ![128]⟩
abbrev S800000 : Shape := ⟨1, ![800000]⟩
abbrev S1024 : Shape := ⟨1, ![1024]⟩
abbrev S50000 : Shape := ⟨1, ![50000]⟩
abbrev S_ : Shape := ⟨0, ![]⟩
abbrev S50000x1 : Shape := ⟨2, ![50000, 1]⟩
abbrev S800000x1 : Shape := ⟨2, ![800000, 1]⟩
abbrev S800000x128 : Shape := ⟨2, ![800000, 128]⟩
abbrev S1x128 : Shape := ⟨2, ![1, 128]⟩
abbrev S1024x1 : Shape := ⟨2, ![1024, 1]⟩
abbrev S1024x128 : Shape := ⟨2, ![1024, 128]⟩
abbrev S128x50000 : Shape := ⟨2, ![128, 50000]⟩
abbrev S1024x50000 : Shape := ⟨2, ![1024, 50000]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S500x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S800000, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1024, .i32⟩
  | .hbm, ⟨13, _⟩ => ⟨S1024, .i32⟩
  | .hbm, ⟨14, _⟩ => ⟨S50000, .i32⟩
  | .hbm, ⟨15, _⟩ => ⟨S800000, .i32⟩
  | .hbm, ⟨16, _⟩ => ⟨S800000, .i32⟩
  | .hbm, ⟨17, _⟩ => ⟨S_, .i32⟩
  | .hbm, ⟨18, _⟩ => ⟨S50000, .i32⟩
  | .hbm, ⟨19, _⟩ => ⟨S50000, .i1⟩
  | .hbm, ⟨20, _⟩ => ⟨S_, .i32⟩
  | .hbm, ⟨21, _⟩ => ⟨S50000, .i32⟩
  | .hbm, ⟨22, _⟩ => ⟨S50000, .i32⟩
  | .hbm, ⟨23, _⟩ => ⟨S50000, .i32⟩
  | .hbm, ⟨24, _⟩ => ⟨S50000x1, .i32⟩
  | .hbm, ⟨25, _⟩ => ⟨S50000x128, .f32⟩
  | .hbm, ⟨26, _⟩ => ⟨S50000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x1, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x1, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S1024, .i32⟩
  | .hbm, ⟨75, _⟩ => ⟨S1024, .i1⟩
  | .hbm, ⟨76, _⟩ => ⟨S_, .i32⟩
  | .hbm, ⟨77, _⟩ => ⟨S1024, .i32⟩
  | .hbm, ⟨78, _⟩ => ⟨S1024, .i32⟩
  | .hbm, ⟨79, _⟩ => ⟨S1024, .i32⟩
  | .hbm, ⟨80, _⟩ => ⟨S1024x1, .i32⟩
  | .hbm, ⟨81, _⟩ => ⟨S1024x128, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S1024x128, .f32⟩
  | .hbm, ⟨89, _⟩ => ⟨S1024x128, .f32⟩
  | .hbm, ⟨90, _⟩ => ⟨S1x128, .f32⟩
  | .hbm, ⟨91, _⟩ => ⟨S1024x128, .f32⟩
  | .hbm, ⟨92, _⟩ => ⟨S1024x128, .f32⟩
  | .hbm, ⟨93, _⟩ => ⟨S_, .i32⟩
  | .hbm, ⟨94, _⟩ => ⟨S1024, .i32⟩
  | .hbm, ⟨95, _⟩ => ⟨S1024, .i1⟩
  | .hbm, ⟨96, _⟩ => ⟨S_, .i32⟩
  | .hbm, ⟨97, _⟩ => ⟨S1024, .i32⟩
  | .hbm, ⟨98, _⟩ => ⟨S1024, .i32⟩
  | .hbm, ⟨99, _⟩ => ⟨S1024, .i32⟩
  | .hbm, ⟨100, _⟩ => ⟨S1024x1, .i32⟩
  | .hbm, ⟨101, _⟩ => ⟨S1024x128, .f32⟩
  | .hbm, ⟨102, _⟩ => ⟨S1024x128, .f32⟩
  | .hbm, ⟨103, _⟩ => ⟨S1024x128, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S128, .f32⟩
  | .hbm, ⟨108, _⟩ => ⟨S128, .f32⟩
  | .hbm, ⟨109, _⟩ => ⟨S1x128, .f32⟩
  | .hbm, ⟨110, _⟩ => ⟨S1024x128, .f32⟩
  | .hbm, ⟨111, _⟩ => ⟨S1024x128, .f32⟩
  | .hbm, ⟨112, _⟩ => ⟨S1x128, .f32⟩
  | .hbm, ⟨113, _⟩ => ⟨S1024x128, .f32⟩
  | .hbm, ⟨114, _⟩ => ⟨S1024x128, .f32⟩
  | .hbm, ⟨115, _⟩ => ⟨S128x50000, .f32⟩
  | .hbm, ⟨116, _⟩ => ⟨S1024x50000, .f32⟩
  | .hbm, ⟨117, _⟩ => ⟨S1024x50000, .f32⟩
  | .hbm, ⟨118, _⟩ => ⟨S1024x50000, .f32⟩
  | .hbm, ⟨119, _⟩ => ⟨S_, .f32⟩
  | .hbm, ⟨120, _⟩ => ⟨S1024x50000, .f32⟩
  | .hbm, ⟨121, _⟩ => ⟨S1024x50000, .f32⟩
  | .hbm, ⟨122, _⟩ => ⟨S_, .f32⟩
  | .hbm, ⟨123, _⟩ => ⟨S1024x50000, .f32⟩
  | .hbm, ⟨124, _⟩ => ⟨S1024x50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call0_cst : Ref sig .tc := ⟨.hbm, 46, rfl⟩
abbrev main_call0_v0 : Ref sig .tc := ⟨.hbm, 47, rfl⟩
abbrev main_v24 : Ref sig .tc := ⟨.hbm, 48, rfl⟩
abbrev main_v25 : Ref sig .tc := ⟨.hbm, 49, rfl⟩
abbrev main_c_3 : Ref sig .tc := ⟨.hbm, 50, rfl⟩
abbrev main_v26 : Ref sig .tc := ⟨.hbm, 51, rfl⟩
abbrev main_v27 : Ref sig .tc := ⟨.hbm, 52, rfl⟩
abbrev main_c_4 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call1_cst : Ref sig .tc := ⟨.hbm, 69, rfl⟩
abbrev main_call1_v0 : Ref sig .tc := ⟨.hbm, 70, rfl⟩
abbrev main_v42 : Ref sig .tc := ⟨.hbm, 71, rfl⟩
abbrev main_v43 : Ref sig .tc := ⟨.hbm, 72, rfl⟩
abbrev main_c_6 : Ref sig .tc := ⟨.hbm, 73, rfl⟩
abbrev main_v44 : Ref sig .tc := ⟨.hbm, 74, rfl⟩
abbrev main_v45 : Ref sig .tc := ⟨.hbm, 75, rfl⟩
abbrev main_c_7 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_8 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_9 : Ref sig .tc := ⟨.hbm, 93, rfl⟩
abbrev main_v61 : Ref sig .tc := ⟨.hbm, 94, rfl⟩
abbrev main_v62 : Ref sig .tc := ⟨.hbm, 95, rfl⟩
abbrev main_c_10 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_11 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_12 : Ref sig .tc := ⟨.hbm, 119, rfl⟩
abbrev main_v84 : Ref sig .tc := ⟨.hbm, 120, rfl⟩
abbrev main_v85 : Ref sig .tc := ⟨.hbm, 121, rfl⟩
abbrev main_cst_13 : Ref sig .tc := ⟨.hbm, 122, rfl⟩
abbrev main_v86 : Ref sig .tc := ⟨.hbm, 123, rfl⟩
abbrev main_v87 : Ref sig .tc := ⟨.hbm, 124, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S128 : S_.BroadcastsInDim S128 (![] : Fin 0 → Fin S128.rank)
  bcast_S1x128_S1024x128_0_1 : S1x128.BroadcastsInDim S1024x128 (![0, 1] : Fin 2 → Fin S1024x128.rank)
  transposes_S50000x128_S128x50000_1_0 : S50000x128.Transposes [1, 0] S128x50000
  bcast_S_S1024x50000 : S_.BroadcastsInDim S1024x50000 (![] : Fin 0 → Fin S1024x50000.rank)
  gather_S50000x128_S50000x1_S50000x128_1_0_n_n_0_1_1128_wf : GatherDims.WF S50000x128 S50000x1 S50000x128 [1] [0] [] [0] [] 1 ![1, 128]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S1024x1_S1024x128_1_0_n_n_0_1_1128_wf : GatherDims.WF S50000x128 S1024x1 S1024x128 [1] [0] [] [0] [] 1 ![1, 128]
  gather_S500x128_S1024x1_S1024x128_1_0_n_n_0_1_1128_wf : GatherDims.WF S500x128 S1024x1 S1024x128 [1] [0] [] [0] [] 1 ![1, 128]
  dot_S1024x128_S128x128_S1024x128_1_0_0_1_n_n_wf : DotDims.WF S1024x128 S128x128 S1024x128 [1] [0] [0] [1] [] []
  dot_S1024x128_S128x50000_S1024x50000_1_0_0_1_n_n_wf : DotDims.WF S1024x128 S128x50000 S1024x50000 [1] [0] [0] [1] [] []

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S1024x1_S1024x128_1_0_n_n_0_1_1128 : GatherDims S50000x128 S1024x1 S1024x128 where
  offsetDims := [1]
  collapsedSliceDims := [0]
  operandBatchingDims := []
  startIndicesBatchingDims := []
  startIndexMap := [0]
  indexVectorDim := 1
  sliceSizes := ![1, 128]
  wf := gather_S50000x128_S1024x1_S1024x128_1_0_n_n_0_1_1128_wf
def gather_S500x128_S1024x1_S1024x128_1_0_n_n_0_1_1128 : GatherDims S500x128 S1024x1 S1024x128 where
  offsetDims := [1]
  collapsedSliceDims := [0]
  operandBatchingDims := []
  startIndicesBatchingDims := []
  startIndexMap := [0]
  indexVectorDim := 1
  sliceSizes := ![1, 128]
  wf := gather_S500x128_S1024x1_S1024x128_1_0_n_n_0_1_1128_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x50000_S1024x50000_1_0_0_1_n_n : DotDims S1024x128 S128x50000 S1024x50000 where
  lhsContracting := [1]
  rhsContracting := [0]
  lhsNonContracting := [0]
  rhsNonContracting := [1]
  lhsBatch := []
  rhsBatch := []
  wf := dot_S1024x128_S128x50000_S1024x50000_1_0_0_1_n_n_wf

class Facts : Prop extends Facts₀ where

variable [Facts]
-- ==== Proof.Walk.lean ====
/-
  Buffers that nothing has written yet. An argument array is written by no host operation and by no region (a region
  reads it through an input window or not at all), so at every boundary of the run it still holds its launch contents.
  The gathered entity rows, computed before the first region and read by it through an input window, are likewise
  untouched until the shortcut addition reads them again after the second region.
-/
import proofs.«178771_j40802189312754_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A host stretch none of whose operations writes the buffer leaves the buffer as it was: every operation of the
    stretch writes one named buffer, and that name differs from this one. -/
local macro "host_keeps " ops:ident buf:ident : term =>
  `(StableHlo.after_of_forall_not_mem (b := Proc.devRef .tc $buf) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ### After the first host stretch -/

theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := host_keeps hostOps0 main_arg2
    _ = m ((c : Thread nD τ).loc main_arg2) := rfl

/-! ### At the first region's exit: the region has no window on any of these arrays -/

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := host_keeps hostOps0 main_arg3
    _ = m ((c : Thread nD τ).loc main_arg3) := rfl

theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := host_keeps hostOps0 main_arg7
    _ = m ((c : Thread nD τ).loc main_arg7) := rfl

theorem W2_main_arg15 (c : Dev nD) : W2 m ρ c (Proc.devRef .tc main_arg15) = m ((c : Thread nD τ).loc main_arg15) :=
  calc W2 m ρ c (Proc.devRef .tc main_arg15)
    _ = W1 m ρ c (Proc.devRef .tc main_arg15) := W2_of_ne m ρ c main_arg15 (by decide)
    _ = W0 m ρ c (Proc.devRef .tc main_arg15) := host_keeps hostOps0 main_arg15
    _ = m ((c : Thread nD τ).loc main_arg15) := rfl

theorem W2_main_arg16 (c : Dev nD) : W2 m ρ c (Proc.devRef .tc main_arg16) = m ((c : Thread nD τ).loc main_arg16) :=
  calc W2 m ρ c (Proc.devRef .tc main_arg16)
    _ = W1 m ρ c (Proc.devRef .tc main_arg16) := W2_of_ne m ρ c main_arg16 (by decide)
    _ = W0 m ρ c (Proc.devRef .tc main_arg16) := host_keeps hostOps0 main_arg16
    _ = m ((c : Thread nD τ).loc main_arg16) := rfl

/-! ### At the second region's entry -/

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := host_keeps hostOps1_1 main_arg4
    _ = W2 m ρ c (Proc.devRef .tc main_arg4) := host_keeps hostOps1 main_arg4
    _ = W1 m ρ c (Proc.devRef .tc main_arg4) := W2_of_ne m ρ c main_arg4 (by decide)
    _ = W0 m ρ c (Proc.devRef .tc main_arg4) := host_keeps hostOps0 main_arg4
    _ = m ((c : Thread nD τ).loc main_arg4) := rfl

/-! ### At the second region's exit: neither region has a window on any of these arrays -/

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := host_keeps hostOps1_1 main_arg1
    _ = W2 m ρ c (Proc.devRef .tc main_arg1) := host_keeps hostOps1 main_arg1
    _ = W1 m ρ c (Proc.devRef .tc main_arg1) := W2_of_ne m ρ c main_arg1 (by decide)
    _ = W0 m ρ c (Proc.devRef .tc main_arg1) := host_keeps hostOps0 main_arg1
    _ = m ((c : Thread nD τ).loc main_arg1) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := host_keeps hostOps1_1 main_arg5
    _ = W2 m ρ c (Proc.devRef .tc main_arg5) := host_keeps hostOps1 main_arg5
    _ = W1 m ρ c (Proc.devRef .tc main_arg5) := W2_of_ne m ρ c main_arg5 (by decide)
    _ = W0 m ρ c (Proc.devRef .tc main_arg5) := host_keeps hostOps0 main_arg5
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := host_keeps hostOps1_1 main_arg6
    _ = W2 m ρ c (Proc.devRef .tc main_arg6) := host_keeps hostOps1 main_arg6
    _ = W1 m ρ c (Proc.devRef .tc main_arg6) := W2_of_ne m ρ c main_arg6 (by decide)
    _ = W0 m ρ c (Proc.devRef .tc main_arg6) := host_keeps hostOps0 main_arg6
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := host_keeps hostOps1_1 main_arg7
    _ = W2 m ρ c (Proc.devRef .tc main_arg7) := host_keeps hostOps1 main_arg7
    _ = m ((c : Thread nD τ).loc main_arg7) := W2_main_arg7 m ρ c

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := host_keeps hostOps1_1 main_arg8
    _ = W2 m ρ c (Proc.devRef .tc main_arg8) := host_keeps hostOps1 main_arg8
    _ = W1 m ρ c (Proc.devRef .tc main_arg8) := W2_of_ne m ρ c main_arg8 (by decide)
    _ = W0 m ρ c (Proc.devRef .tc main_arg8) := host_keeps hostOps0 main_arg8
    _ = m ((c : Thread nD τ).loc main_arg8) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := host_keeps hostOps1_1 main_arg9
    _ = W2 m ρ c (Proc.devRef .tc main_arg9) := host_keeps hostOps1 main_arg9
    _ = W1 m ρ c (Proc.devRef .tc main_arg9) := W2_of_ne m ρ c main_arg9 (by decide)
    _ = W0 m ρ c (Proc.devRef .tc main_arg9) := host_keeps hostOps0 main_arg9
    _ = m ((c : Thread nD τ).loc main_arg9) := rfl

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := host_keeps hostOps1_1 main_arg10
    _ = W2 m ρ c (Proc.devRef .tc main_arg10) := host_keeps hostOps1 main_arg10
    _ = W1 m ρ c (Proc.devRef .tc main_arg10) := W2_of_ne m ρ c main_arg10 (by decide)
    _ = W0 m ρ c (Proc.devRef .tc main_arg10) := host_keeps hostOps0 main_arg10
    _ = m ((c : Thread nD τ).loc main_arg10) := rfl

theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := W5_of_ne m ρ c main_arg11 (by decide)
    _ = W3 m ρ c (Proc.devRef .tc main_arg11) := host_keeps hostOps1_1 main_arg11
    _ = W2 m ρ c (Proc.devRef .tc main_arg11) := host_keeps hostOps1 main_arg11
    _ = W1 m ρ c (Proc.devRef .tc main_arg11) := W2_of_ne m ρ c main_arg11 (by decide)
    _ = W0 m ρ c (Proc.devRef .tc main_arg11) := host_keeps hostOps0 main_arg11
    _ = m ((c : Thread nD τ).loc main_arg11) := rfl

theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := W5_of_ne m ρ c main_arg12 (by decide)
    _ = W3 m ρ c (Proc.devRef .tc main_arg12) := host_keeps hostOps1_1 main_arg12
    _ = W2 m ρ c (Proc.devRef .tc main_arg12) := host_keeps hostOps1 main_arg12
    _ = W1 m ρ c (Proc.devRef .tc main_arg12) := W2_of_ne m ρ c main_arg12 (by decide)
    _ = W0 m ρ c (Proc.devRef .tc main_arg12) := host_keeps hostOps0 main_arg12
    _ = m ((c : Thread nD τ).loc main_arg12) := rfl

theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := W5_of_ne m ρ c main_arg13 (by decide)
    _ = W3 m ρ c (Proc.devRef .tc main_arg13) := host_keeps hostOps1_1 main_arg13
    _ = W2 m ρ c (Proc.devRef .tc main_arg13) := host_keeps hostOps1 main_arg13
    _ = W1 m ρ c (Proc.devRef .tc main_arg13) := W2_of_ne m ρ c main_arg13 (by decide)
    _ = W0 m ρ c (Proc.devRef .tc main_arg13) := host_keeps hostOps0 main_arg13
    _ = m ((c : Thread nD τ).loc main_arg13) := rfl

theorem W5_main_arg15 (c : Dev nD) : W5 m ρ c (Proc.devRef .tc main_arg15) = m ((c : Thread nD τ).loc main_arg15) :=
  calc W5 m ρ c (Proc.devRef .tc main_arg15)
    _ = W4 m ρ c (Proc.devRef .tc main_arg15) := W5_of_ne m ρ c main_arg15 (by decide)
    _ = W3 m ρ c (Proc.devRef .tc main_arg15) := host_keeps hostOps1_1 main_arg15
    _ = W2 m ρ c (Proc.devRef .tc main_arg15) := host_keeps hostOps1 main_arg15
    _ = m ((c : Thread nD τ).loc main_arg15) := W2_main_arg15 m ρ c

theorem W5_main_arg16 (c : Dev nD) : W5 m ρ c (Proc.devRef .tc main_arg16) = m ((c : Thread nD τ).loc main_arg16) :=
  calc W5 m ρ c (Proc.devRef .tc main_arg16)
    _ = W4 m ρ c (Proc.devRef .tc main_arg16) := W5_of_ne m ρ c main_arg16 (by decide)
    _ = W3 m ρ c (Proc.devRef .tc main_arg16) := host_keeps hostOps1_1 main_arg16
    _ = W2 m ρ c (Proc.devRef .tc main_arg16) := host_keeps hostOps1 main_arg16
    _ = m ((c : Thread nD τ).loc main_arg16) := W2_main_arg16 m ρ c

/-- The gathered entity rows at the second region's exit are what the first host stretch left: the second region has
    no window on them, the host stretches between the regions do not write them, and the first region reads them
    through its input window 0, which hands an input array back as it was entered. -/
theorem W5_main_v6 (c : Dev nD) : W5 m ρ c (Proc.devRef .tc main_v6) = W1 m ρ c (Proc.devRef .tc main_v6) :=
  calc W5 m ρ c (Proc.devRef .tc main_v6)
    _ = W4 m ρ c (Proc.devRef .tc main_v6) := W5_of_ne m ρ c main_v6 (by decide)
    _ = W3 m ρ c (Proc.devRef .tc main_v6) := host_keeps hostOps1_1 main_v6
    _ = W2 m ρ c (Proc.devRef .tc main_v6) := host_keeps hostOps1 main_v6
    _ = W1 m ρ c (Proc.devRef .tc main_v6) :=
        (W2_arr m ρ c 0).trans (((dat0 (V1 m ρ) c).arrAt_in 0 rfl _).trans (A_eq0 (V1 m ρ) c 0))

/-! ### After the two host stretches that follow the second region: neither writes any of these buffers -/

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := host_keeps hostOps2_1 main_arg1
    _ = W5 m ρ c (Proc.devRef .tc main_arg1) := host_keeps hostOps2 main_arg1
    _ = m ((c : Thread nD τ).loc main_arg1) := W5_main_arg1 m ρ c

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := host_keeps hostOps2_1 main_arg6
    _ = W5 m ρ c (Proc.devRef .tc main_arg6) := host_keeps hostOps2 main_arg6
    _ = m ((c : Thread nD τ).loc main_arg6) := W5_main_arg6 m ρ c

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := host_keeps hostOps2_1 main_arg8
    _ = W5 m ρ c (Proc.devRef .tc main_arg8) := host_keeps hostOps2 main_arg8
    _ = m ((c : Thread nD τ).loc main_arg8) := W5_main_arg8 m ρ c

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := host_keeps hostOps2_1 main_arg9
    _ = W5 m ρ c (Proc.devRef .tc main_arg9) := host_keeps hostOps2 main_arg9
    _ = m ((c : Thread nD τ).loc main_arg9) := W5_main_arg9 m ρ c

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := host_keeps hostOps2_1 main_arg10
    _ = W5 m ρ c (Proc.devRef .tc main_arg10) := host_keeps hostOps2 main_arg10
    _ = m ((c : Thread nD τ).loc main_arg10) := W5_main_arg10 m ρ c

theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := host_keeps hostOps2_1 main_arg11
    _ = W5 m ρ c (Proc.devRef .tc main_arg11) := host_keeps hostOps2 main_arg11
    _ = m ((c : Thread nD τ).loc main_arg11) := W5_main_arg11 m ρ c

theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := host_keeps hostOps2_1 main_arg12
    _ = W5 m ρ c (Proc.devRef .tc main_arg12) := host_keeps hostOps2 main_arg12
    _ = m ((c : Thread nD τ).loc main_arg12) := W5_main_arg12 m ρ c

theorem W7_main_arg13 (c : Dev nD) : W7 m ρ c (Proc.devRef .tc main_arg13) = m ((c : Thread nD τ).loc main_arg13) :=
  calc W7 m ρ c (Proc.devRef .tc main_arg13)
    _ = W6 m ρ c (Proc.devRef .tc main_arg13) := host_keeps hostOps2_1 main_arg13
    _ = W5 m ρ c (Proc.devRef .tc main_arg13) := host_keeps hostOps2 main_arg13
    _ = m ((c : Thread nD τ).loc main_arg13) := W5_main_arg13 m ρ c

/-- The gathered entity rows are still what the first host stretch left when the shortcut addition reads them. -/
theorem W7_main_v6 (c : Dev nD) : W7 m ρ c (Proc.devRef .tc main_v6) = W1 m ρ c (Proc.devRef .tc main_v6) :=
  calc W7 m ρ c (Proc.devRef .tc main_v6)
    _ = W6 m ρ c (Proc.devRef .tc main_v6) := host_keeps hostOps2_1 main_v6
    _ = W5 m ρ c (Proc.devRef .tc main_v6) := host_keeps hostOps2 main_v6
    _ = W1 m ρ c (Proc.devRef .tc main_v6) := W5_main_v6 m ρ c

end Cert.KernelIdeal.Gen

end
-- ==== Proof.Spec.lean ====
/-
  The two whole-array functions at which the kernel's regions and the reference's matrix products meet, over the
  extended reals.

  `rowsTimes X M` is the product of a 50000 × 128 array by a 128 × 128 matrix: entry (r, j) is the sum over k of
  X(r, k) · M(k, j). Both graph-convolution projections have this form.

  `score Q E` is the scoring head: entry (b, n) is the logistic function of the inner product of row b of the
  1024 × 128 query array Q with row n of the 50000 × 128 entity array E.
-/
import Idealize.ShloMosaic.Lib.ValueIdx
import Idealize.ShloMosaic.PureOps.Ideal

open scoped BigOperators

noncomputable section

namespace Cert.Spec

open Idealize.ShloMosaic Idealize.ShloMosaic.ValueIdx

/-- Entry (r, j) of the product of a 50000 × 128 array with a 128 × 128 matrix. -/
def rowsTimes (X : FVec Ideal ⟨2, ![50000, 128]⟩ .f32) (M : FVec Ideal ⟨2, ![128, 128]⟩ .f32) :
    FVec Ideal ⟨2, ![50000, 128]⟩ .f32 :=
  fun i => ∑ k : Fin 128, X (ix2 (i 0) k) * M (ix2 k (i 1))

/-- Entry (b, n) of the scores: the logistic function of the inner product of query row b and entity row n. -/
def score (Q : FVec Ideal ⟨2, ![1024, 128]⟩ .f32) (E : FVec Ideal ⟨2, ![50000, 128]⟩ .f32) :
    FVec Ideal ⟨2, ![1024, 50000]⟩ .f32 :=
  fun i => FloatOps.logistic (F := Ideal) (φ := .f32) (∑ k : Fin 128, Q (ix2 (i 0) k) * E (ix2 (i 1) k))

end Cert.Spec

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Region01.lean ====
/-
  The two projection regions. Each runs ten grid points; point t multiplies rows 5000·t … 5000·t + 4999 of its input
  array by the whole 128 × 128 weight matrix into the zero accumulator and writes the 5000 × 128 block back to the same
  rows of the output. The ten blocks tile the 50000 rows, so the output array after the region is the product of the
  input array by the weights, entry by entry.
-/
import proofs.«178771_j40802189312754_1_alg».proof.Proof.Gen.KernelIdeal.Frame
import proofs.«178771_j40802189312754_1_alg».proof.Proof.Spec
import proofs.«178771_j40802189312754_1_alg».proof.Proof.LibPlainMatmul
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-! ## What both regions use -/

/-- The offset vector of a whole-buffer access, two zeros, is the constant zero function. -/
theorem zeroOffsets : (![0, 0] : Fin 2 → Nat) = fun _ => 0 := funext fun a => by fin_cases a <;> rfl

/-- An entry of the product of a 50000 × 128 array by a 128 × 128 matrix, at coordinates of the arrays' own extents. -/
theorem rowsTimes_entry (X : FVec Ideal ⟨2, ![50000, 128]⟩ .f32) (M : FVec Ideal ⟨2, ![128, 128]⟩ .f32)
    (r : Fin 50000) (j : Fin 128) :
    Cert.Spec.rowsTimes X M (ix2 r j) = ∑ k : Fin 128, X (ix2 r k) * M (ix2 k j) := rfl

/-! ## The first projection region -/

/-- The body's stored value at entry (a, b): row a of the left block times column b of the right block. The cast to
    the same shape and the changes of float format are the identity over the extended reals, and the product
    accumulates into zero. -/
theorem product0_entry (x0 : Vec Ideal S5000x128 .f32) (x1 : Vec Ideal S128x128 .f32) (a : Fin 5000) (b : Fin 128) :
    k0_pay1 (F := Ideal) x0 x1 (ix2 a b) = ∑ k : Fin 128, x0 (ix2 a k) * x1 (ix2 k b) := by
  unfold k0_pay1
  refine (PlainMatmul.matmul_zero_apply dot_S5000x128_S128x128_S5000x128_1_0_0_1_n_n
    dot_S5000x128_S128x128_S5000x128_1_0_0_1_n_n_wf rfl none
    (truncf (F := Ideal) .bf16 (shapeCast S5000x128 x0 shapeCasts_S5000x128_S5000x128) bitsLt_bf16_f32)
    (truncf (F := Ideal) .bf16 x1 bitsLt_bf16_f32) a b).trans ?_
  refine Finset.sum_congr rfl fun k _ => ?_
  rw [truncf_apply, truncf_apply, shapeCast_self]

/-- The three index maps over the ten grid points: the input and the output move down the rows with the point, the
    weights stay at block (0, 0). -/
theorem blockIndices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the input's block at point t is entry (5000·t + p, k) of the input array. -/
theorem inputBlock0_entry (c : Dev nD) (t : Fin cfg0.N) (p : Fin 5000) (k : Fin 128) (r : Fin 50000)
    (hr : r.val = 5000 * t.val + p.val) :
    (iblk0 V c 0 t : Vec Ideal S5000x128 .f32) (ix2 p k) = (V c main_v6 : S50000x128.Idx → Elt Ideal .f32) (ix2 r k) := by
  obtain ⟨e00, e01, -⟩ := blockIndices0 t
  unfold iblk0
  rw [View.read_apply]
  show V c main_v6 _ = V c main_v6 _
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- The weights' block at every point is the weight matrix itself. -/
theorem weightBlock0_entry (c : Dev nD) (t : Fin cfg0.N) (k : Fin 128) (q : Fin 128) :
    (iblk0 V c 1 t : Vec Ideal S128x128 .f32) (ix2 k q) = (V c main_arg2 : S128x128.Idx → Elt Ideal .f32) (ix2 k q) := by
  obtain ⟨-, -, e10, e11, -⟩ := blockIndices0 t
  unfold iblk0
  rw [View.read_apply]
  show V c main_arg2 _ = V c main_arg2 _
  congr 1
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- Entry (p, q) of the output's block at point t sits at entry (5000·t + p, q) of the output array. -/
theorem outputBlock0_emb (t : Fin cfg0.N) (p : Fin 5000) (q : Fin 128) (r : Fin 50000)
    (hr : r.val = 5000 * t.val + p.val) :
    ((cfg0.win 2).blk t).view.emb (ix2 p q) = (ix2 r q : S50000x128.Idx) := by
  obtain ⟨-, -, -, -, e20, e21⟩ := blockIndices0 t
  funext a
  apply Fin.ext
  match a with
  | ⟨0, _⟩ => show win0_2.index t (0 : Fin 2) * 5000 + 1 * p.val = r.val; omega
  | ⟨1, _⟩ => show win0_2.index t (1 : Fin 2) * 128 + 1 * q.val = q.val; omega

/-- What point t writes back is block t of the product of the input array by the weights: entry (p, q) of the body's
    stored block is row p of the input's block times column q of the weights' block, that is row 5000·t + p of the
    input array times column q of the weight matrix, and the block's entry (p, q) sits at (5000·t + p, q). -/
theorem flushed0_eq (c : Dev nD) (t : Fin cfg0.N) :
    (dat0 (F := Ideal) V c).flushed 2 t
      = ((cfg0.win 2).blk t).view.read (Elt Ideal) (Cert.Spec.rowsTimes (V c main_v6) (V c main_arg2)) := by
  show (cfg0.win 2).cut (grid0.coords t) ((dat0 (F := Ideal) V c).after 2 t) = _
  rw [after0_2]
  unfold out0_2
  rw [View.canon_unit_zero zeroOffsets]
  simp only [View.ld_unit_zero (S := S5000x128) zeroOffsets, View.ld_unit_zero (S := S128x128) zeroOffsets]
  funext j
  obtain ⟨p, q, rfl⟩ : ∃ (p : Fin 5000) (q : Fin 128), j = ix2 p q := ⟨j 0, j 1, eq_ix2 j⟩
  have hrow : 5000 * t.val + p.val < 50000 := by
    have ht : t.val < 10 := t.isLt
    have hp : p.val < 5000 := p.isLt
    omega
  show k0_pay1 (F := Ideal) (iblk0 V c 0 t) (iblk0 V c 1 t) (ix2 p q)
    = Cert.Spec.rowsTimes (V c main_v6) (V c main_arg2) (((cfg0.win 2).blk t).view.emb (ix2 p q))
  rw [outputBlock0_emb t p q ⟨5000 * t.val + p.val, hrow⟩ rfl, rowsTimes_entry]
  refine (product0_entry (iblk0 V c 0 t) (iblk0 V c 1 t) p q).trans ?_
  refine Finset.sum_congr rfl fun k _ => ?_
  rw [inputBlock0_entry V c t p k ⟨5000 * t.val + p.val, hrow⟩ rfl, weightBlock0_entry V c t k q]

/-- An index of the output array is in point t's block iff each coordinate is in the block's range on its axis. -/
theorem mem_outputBlock0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v7).slice (win0_2.rect t)).set ↔ _
  rw [View.set_slice_whole, Rect.mem_set_unit]
  exact Iff.rfl

/-- The ten blocks tile the 50000 rows: row r of the output array is in the block of point r / 5000, which is
    written back. -/
theorem outputBlocks0_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < 10 := by omega
  obtain ⟨-, -, -, -, e20, e21⟩ := blockIndices0 ⟨(i 0).val / 5000, ht⟩
  have e20' : win0_2.index ⟨(i 0).val / 5000, ht⟩ (0 : Fin 2) = (i 0).val / 5000 := e20
  refine ⟨⟨(i 0).val / 5000, ht⟩, flush0_2 _, ?_⟩
  rw [mem_outputBlock0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e20']; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e21]; omega

/-- After the first projection region its output array is the product of its input array by its weights. -/
theorem region0_array (c : Dev nD) :
    (dat0 (F := Ideal) V c).arrAt 2 cfg0.N = Cert.Spec.rowsTimes (V c main_v6) (V c main_arg2) :=
  (dat0 (F := Ideal) V c).arrAt_eq_of_cover 2 (Cert.Spec.rowsTimes (V c main_v6) (V c main_arg2))
    (fun t _ => flushed0_eq V c t) outputBlocks0_cover

/-! ## The second projection region -/

/-- The body's stored value at entry (a, b): row a of the left block times column b of the right block. The cast to
    the same shape and the changes of float format are the identity over the extended reals, and the product
    accumulates into zero. -/
theorem product1_entry (x0 : Vec Ideal S5000x128 .f32) (x1 : Vec Ideal S128x128 .f32) (a : Fin 5000) (b : Fin 128) :
    k1_pay1 (F := Ideal) x0 x1 (ix2 a b) = ∑ k : Fin 128, x0 (ix2 a k) * x1 (ix2 k b) := by
  unfold k1_pay1
  refine (PlainMatmul.matmul_zero_apply dot_S5000x128_S128x128_S5000x128_1_0_0_1_n_n
    dot_S5000x128_S128x128_S5000x128_1_0_0_1_n_n_wf rfl none
    (truncf (F := Ideal) .bf16 (shapeCast S5000x128 x0 shapeCasts_S5000x128_S5000x128) bitsLt_bf16_f32)
    (truncf (F := Ideal) .bf16 x1 bitsLt_bf16_f32) a b).trans ?_
  refine Finset.sum_congr rfl fun k _ => ?_
  rw [truncf_apply, truncf_apply, shapeCast_self]

/-- The three index maps over the ten grid points: the input and the output move down the rows with the point, the
    weights stay at block (0, 0). -/
theorem blockIndices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, k) of the input's block at point t is entry (5000·t + p, k) of the input array. -/
theorem inputBlock1_entry (c : Dev nD) (t : Fin cfg1.N) (p : Fin 5000) (k : Fin 128) (r : Fin 50000)
    (hr : r.val = 5000 * t.val + p.val) :
    (iblk1 V c 0 t : Vec Ideal S5000x128 .f32) (ix2 p k) = (V c main_v24 : S50000x128.Idx → Elt Ideal .f32) (ix2 r k) := by
  obtain ⟨e00, e01, -⟩ := blockIndices1 t
  unfold iblk1
  rw [View.read_apply]
  show V c main_v24 _ = V c main_v24 _
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-- The weights' block at every point is the weight matrix itself. -/
theorem weightBlock1_entry (c : Dev nD) (t : Fin cfg1.N) (k : Fin 128) (q : Fin 128) :
    (iblk1 V c 1 t : Vec Ideal S128x128 .f32) (ix2 k q) = (V c main_arg4 : S128x128.Idx → Elt Ideal .f32) (ix2 k q) := by
  obtain ⟨-, -, e10, e11, -⟩ := blockIndices1 t
  unfold iblk1
  rw [View.read_apply]
  show V c main_arg4 _ = V c main_arg4 _
  congr 1
  funext a
  apply Fin.ext
  match a with
  | ⟨0, _⟩ => show win1_1.index t (0 : Fin 2) * 128 + 1 * k.val = k.val; omega
  | ⟨1, _⟩ => show win1_1.index t (1 : Fin 2) * 128 + 1 * q.val = q.val; omega

/-- Entry (p, q) of the output's block at point t sits at entry (5000·t + p, q) of the output array. -/
theorem outputBlock1_emb (t : Fin cfg1.N) (p : Fin 5000) (q : Fin 128) (r : Fin 50000)
    (hr : r.val = 5000 * t.val + p.val) :
    ((cfg1.win 2).blk t).view.emb (ix2 p q) = (ix2 r q : S50000x128.Idx) := by
  obtain ⟨-, -, -, -, e20, e21⟩ := blockIndices1 t
  funext a
  apply Fin.ext
  match a with
  | ⟨0, _⟩ => show win1_2.index t (0 : Fin 2) * 5000 + 1 * p.val = r.val; omega
  | ⟨1, _⟩ => show win1_2.index t (1 : Fin 2) * 128 + 1 * q.val = q.val; omega

/-- What point t writes back is block t of the product of the input array by the weights: entry (p, q) of the body's
    stored block is row p of the input's block times column q of the weights' block, that is row 5000·t + p of the
    input array times column q of the weight matrix, and the block's entry (p, q) sits at (5000·t + p, q). -/
theorem flushed1_eq (c : Dev nD) (t : Fin cfg1.N) :
    (dat1 (F := Ideal) V c).flushed 2 t
      = ((cfg1.win 2).blk t).view.read (Elt Ideal) (Cert.Spec.rowsTimes (V c main_v24) (V c main_arg4)) := by
  show (cfg1.win 2).cut (grid1.coords t) ((dat1 (F := Ideal) V c).after 2 t) = _
  rw [after1_2]
  unfold out1_2
  rw [View.canon_unit_zero zeroOffsets]
  simp only [View.ld_unit_zero (S := S5000x128) zeroOffsets, View.ld_unit_zero (S := S128x128) zeroOffsets]
  funext j
  obtain ⟨p, q, rfl⟩ : ∃ (p : Fin 5000) (q : Fin 128), j = ix2 p q := ⟨j 0, j 1, eq_ix2 j⟩
  have hrow : 5000 * t.val + p.val < 50000 := by
    have ht : t.val < 10 := t.isLt
    have hp : p.val < 5000 := p.isLt
    omega
  show k1_pay1 (F := Ideal) (iblk1 V c 0 t) (iblk1 V c 1 t) (ix2 p q)
    = Cert.Spec.rowsTimes (V c main_v24) (V c main_arg4) (((cfg1.win 2).blk t).view.emb (ix2 p q))
  rw [outputBlock1_emb t p q ⟨5000 * t.val + p.val, hrow⟩ rfl, rowsTimes_entry]
  refine (product1_entry (iblk1 V c 0 t) (iblk1 V c 1 t) p q).trans ?_
  refine Finset.sum_congr rfl fun k _ => ?_
  rw [inputBlock1_entry V c t p k ⟨5000 * t.val + p.val, hrow⟩ rfl, weightBlock1_entry V c t k q]

/-- An index of the output array is in point t's block iff each coordinate is in the block's range on its axis. -/
theorem mem_outputBlock1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v25).slice (win1_2.rect t)).set ↔ _
  rw [View.set_slice_whole, Rect.mem_set_unit]
  exact Iff.rfl

/-- The ten blocks tile the 50000 rows: row r of the output array is in the block of point r / 5000, which is
    written back. -/
theorem outputBlocks1_cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have ht : (i 0).val / 5000 < 10 := by omega
  obtain ⟨-, -, -, -, e20, e21⟩ := blockIndices1 ⟨(i 0).val / 5000, ht⟩
  have e20' : win1_2.index ⟨(i 0).val / 5000, ht⟩ (0 : Fin 2) = (i 0).val / 5000 := e20
  refine ⟨⟨(i 0).val / 5000, ht⟩, flush1_2 _, ?_⟩
  rw [mem_outputBlock1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e20']; omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e21]; omega

/-- After the second projection region its output array is the product of its input array by its weights. -/
theorem region1_array (c : Dev nD) :
    (dat1 (F := Ideal) V c).arrAt 2 cfg1.N = Cert.Spec.rowsTimes (V c main_v24) (V c main_arg4) :=
  (dat1 (F := Ideal) V c).arrAt_eq_of_cover 2 (Cert.Spec.rowsTimes (V c main_v24) (V c main_arg4))
    (fun t _ => flushed1_eq V c t) outputBlocks1_cover

end Cert.KernelIdeal.RegionValue

end
-- ==== Proof.Region2.lean ====
/-
  The scoring region and the slice after it. The region runs 25 grid points; point t takes the whole 1024 × 128 query
  array and rows 2048·t … 2048·t + 2047 of the entity array padded to 51200 rows, contracts the two over their 128
  columns into the zero accumulator, applies the logistic function, and writes the 1024 × 2048 block to columns
  2048·t … 2048·t + 2047 of the 1024 × 51200 output. The slice then keeps columns 0 … 49999. Those columns read only
  rows below 50000 of the padded array, which are the rows of the unpadded one; what the padding holds never reaches
  a kept entry.
-/
import proofs.«178771_j40802189312754_1_alg».proof.Proof.Gen.KernelIdeal.Frame
import proofs.«178771_j40802189312754_1_alg».proof.Proof.Spec
import Idealize.ShloMosaic.Lib.Pipeline.Value
import Idealize.ShloMosaic.Lib.KernelVsHost

set_option maxRecDepth 16384

open scoped BigOperators

noncomputable section

/-! ## A matrix product contracted on both operands' columns, read at an entry -/

namespace Idealize.ShloMosaic.RowsByRows

open Idealize.ShloMosaic Idealize.ShloMosaic.ValueIdx

variable {m k n : Nat} {φ₁ φ₂ : FTy}

/-- The dimension numbers of the product of an m × k matrix with the transpose of an n × k matrix (each operand
    contracted on its columns, its rows free), whatever the evidence that they are well formed. -/
def dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ :=
  ⟨[1], [1], [0], [0], [], [], w⟩

/-- At output entry (a, b) and contracted coordinate c the left operand is read at (a, c): row a, column c. -/
theorem lhsIdx_dims (w : DotDims.WF ⟨2, ![m, k]⟩ ⟨2, ![n, k]⟩ ⟨2, ![m, n]⟩ [1] [1] [0] [0] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (b, c): row b, column c — the output's column picks the right operand's ROW. -/
theorem rhsIdx_dims (w : DotDims.WF ⟨2, ![m, k]⟩ ⟨2, ![n, k]⟩ ⟨2, ![m, n]⟩ [1] [1] [0] [0] [] [])
    (a : Fin m) (b : Fin n) (c : Fin k) :
    (dims w).rhsIdx (ix2 a b) ((contrEquiv1 (dims w) k rfl rfl).symm c) = ix2 b c := by
  have hc := contrEquiv1_symm_val (dims w) k rfl rfl c
  funext ax; apply Fin.ext
  match ax with
  | ⟨0, _⟩ => simp [DotDims.rhsIdx, dims]; rfl
  | ⟨1, _⟩ => simp [DotDims.rhsIdx, dims]; exact hc

/-- The product into the zero splat, at entry (a, b): the inner product of row a of A with row b of B. -/
theorem matmul_zero_apply (d : DotDims ⟨2, ![m, k]⟩ ⟨2, ![n, k]⟩ ⟨2, ![m, n]⟩)
    (w : DotDims.WF ⟨2, ![m, k]⟩ ⟨2, ![n, k]⟩ ⟨2, ![m, n]⟩ [1] [1] [0] [0] [] []) (hd : d = dims w)
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.RowsByRows

namespace Cert.KernelIdeal.RegionValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## What one grid point computes -/

/-- The region's payload at entry (b, q) of its 1024 × 2048 block: the logistic function of the inner product of row b
    of the query block with row q of the entity block. The shape casts are to the same shape and the changes of format
    are the identity on extended reals; the product contracts both operands over their 128 columns into the zero
    accumulator. -/
theorem scoreBlock_entry (x0 : Vec Ideal S1024x128 .f32) (x1 : Vec Ideal S2048x128 .f32) (b : Fin 1024) (q : Fin 2048) :
    k2_pay1 (F := Ideal) x0 x1 (ix2 b q)
      = FloatOps.logistic (F := Ideal) (φ := .f32) (∑ k : Fin 128, x0 (ix2 b k) * x1 (ix2 q k)) := by
  unfold k2_pay1
  show FloatOps.logistic (F := Ideal) (φ := .f32) _ = _
  refine congrArg (FloatOps.logistic (F := Ideal) (φ := .f32)) ?_
  refine (RowsByRows.matmul_zero_apply (m := 1024) (k := 128) (n := 2048) _ dot_S1024x128_S2048x128_S1024x2048_1_1_0_0_n_n_wf rfl none _ _ b q).trans ?_
  refine Finset.sum_congr rfl fun k _ => ?_
  rw [truncf_apply, truncf_apply, shapeCast_self, shapeCast_self]

/-! ## The whole output array as one function of the two operand arrays -/

/-- Entry (b, n) of the region's 1024 × 51200 output: the logistic function of the inner product of row b of the query
    array with row n of the padded entity array. -/
def scoreAll (Q : S1024x128.Idx → Elt Ideal .f32) (P : S51200x128.Idx → Elt Ideal .f32) : S1024x51200.Idx → Elt Ideal .f32 :=
  fun i => FloatOps.logistic (F := Ideal) (φ := .f32) (∑ k : Fin 128, Q (ix2 (i 0) k) * P (ix2 (i 1) k))

/-- The offsets of a whole-block access are zero on both axes. -/
theorem scoreZeroOffsets : (![0, 0] : Fin 2 → Nat) = fun _ => 0 := funext fun a => by fin_cases a <;> rfl

/-- The payload at any index of its block, the index split into its row and its column. -/
theorem scoreBlock_at (x0 : Vec Ideal S1024x128 .f32) (x1 : Vec Ideal S2048x128 .f32) (j : S1024x2048.Idx) :
    k2_pay1 (F := Ideal) x0 x1 j
      = FloatOps.logistic (F := Ideal) (φ := .f32) (∑ k : Fin 128, x0 (ix2 (j 0) k) * x1 (ix2 (j 1) k)) := by
  obtain ⟨b, q, rfl⟩ : ∃ (b : Fin 1024) (q : Fin 2048), j = ix2 b q := ⟨j 0, j 1, eq_ix2 j⟩
  exact scoreBlock_entry x0 x1 b q

/-- The printed index maps, decided once over the 25 grid points: the query window stays on its one block, the entity
    window's block row is the point's number, and the output window's block column is the point's number. -/
theorem scoreBlockIndices : ∀ t : Fin cfg2.N, win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val :=
  (by decide +kernel : ∀ t : Fin grid2.N, _)

/-- The query window's block at any point is the whole query array: entry (b, k) of the block is entry (b, k) of the
    array. -/
theorem queryBlock_entry (c : Dev nD) (t : Fin cfg2.N) (b : Fin 1024) (k : Fin 128) (b' : Fin 1024) (hb : b'.val = b.val) :
    (iblk2 (F := Ideal) V c 0 t : Vec Ideal S1024x128 .f32) (ix2 b k)
      = (V c main_v79 : S1024x128.Idx → Elt Ideal .f32) (ix2 b' k) := by
  obtain ⟨e00, e01, -, -, -, -⟩ := scoreBlockIndices t
  unfold iblk2
  rw [View.read_apply]
  show (V c main_v79 : S1024x128.Idx → Elt Ideal .f32) _ = _
  congr 1
  funext a
  apply Fin.ext
  match a with
  | ⟨0, _⟩ => show win2_0.index t 0 * 1024 + 1 * b.val = b'.val; rw [e00, hb]; omega
  | ⟨1, _⟩ => show win2_0.index t 1 * 128 + 1 * k.val = k.val; rw [e01]; omega

/-- The entity window's block at point t is rows 2048·t … 2048·t + 2047 of the padded entity array: entry (q, k) of the
    block is entry (2048·t + q, k) of the array. -/
theorem entityBlock_entry (c : Dev nD) (t : Fin cfg2.N) (q : Fin 2048) (k : Fin 128) (n : Fin 51200)
    (hn : n.val = 2048 * t.val + q.val) :
    (iblk2 (F := Ideal) V c 1 t : Vec Ideal S2048x128 .f32) (ix2 q k)
      = (V c main_v80 : S51200x128.Idx → Elt Ideal .f32) (ix2 n k) := by
  obtain ⟨-, -, e10, e11, -, -⟩ := scoreBlockIndices t
  unfold iblk2
  rw [View.read_apply]
  show (V c main_v80 : S51200x128.Idx → Elt Ideal .f32) _ = _
  congr 1
  funext a
  apply Fin.ext
  match a with
  | ⟨0, _⟩ => show win2_1.index t 0 * 2048 + 1 * q.val = n.val; rw [e10, hn]; omega
  | ⟨1, _⟩ => show win2_1.index t 1 * 128 + 1 * k.val = k.val; rw [e11]; omega

/-- WHAT POINT t WRITES BACK is block t of `scoreAll` of the two operand arrays as the region finds them: the output
    block's entry (b, q) sits at column 2048·t + q of the array, and there the entity block's row q is the padded
    array's row 2048·t + q. -/
theorem scoreFlushed_eq (c : Dev nD) (t : Fin cfg2.N) :
    (dat2 (F := Ideal) V c).flushed 2 t
      = ((cfg2.win 2).blk t).view.read (Elt Ideal) (scoreAll (V c main_v79) (V c main_v80)) := by
  show (cfg2.win 2).cut (grid2.coords t) ((dat2 (F := Ideal) V c).after 2 t) = _
  rw [after2_2]
  unfold out2_2
  rw [View.canon_unit_zero scoreZeroOffsets]
  simp only [View.ld_unit_zero (S := S1024x128) scoreZeroOffsets, View.ld_unit_zero (S := S2048x128) scoreZeroOffsets]
  obtain ⟨-, -, -, -, e20, e21⟩ := scoreBlockIndices t
  funext j
  show k2_pay1 (F := Ideal) (iblk2 V c 0 t) (iblk2 V c 1 t) j
    = scoreAll (V c main_v79) (V c main_v80) (((cfg2.win 2).blk t).view.emb j)
  refine (scoreBlock_at _ _ j).trans ?_
  show FloatOps.logistic (F := Ideal) (φ := .f32) _ = FloatOps.logistic (F := Ideal) (φ := .f32) _
  refine congrArg _ (Finset.sum_congr rfl fun k _ => ?_)
  refine congrArg₂ (· * ·) (queryBlock_entry V c t (j 0) k _ ?_) (entityBlock_entry V c t (j 1) k _ ?_)
  · show win2_2.index t 0 * 1024 + 1 * (j 0).val = (j 0).val
    rw [e20]; omega
  · show win2_2.index t 1 * 2048 + 1 * (j 1).val = 2048 * t.val + (j 1).val
    rw [e21]; omega

/-- An index of the output array is in point t's block iff each coordinate is in the block's range on its axis. -/
theorem mem_scoreBlock (t : Fin cfg2.N) (i : S1024x51200.Idx) :
    i ∈ ((cfg2.win 2).blk t).view.set ↔ ∀ a : Fin 2, win2_2.index t a * S1024x2048.size a ≤ (i a).val
      ∧ (i a).val < win2_2.index t a * S1024x2048.size a + S1024x2048.size a := by
  show i ∈ ((View.whole main_v81).slice (win2_2.rect t)).set ↔ _
  rw [View.set_slice_whole, Rect.mem_set_unit]
  exact Iff.rfl

/-- THE 25 BLOCKS TILE THE 51200 COLUMNS: column n lies in the block of point n / 2048, and every block spans all
    1024 rows. -/
theorem scoreBlocks_cover (i : S1024x51200.Idx) :
    ∃ t : Fin cfg2.N, (cfg2.win 2).flush t = true ∧ i ∈ ((cfg2.win 2).blk t).view.set := by
  have h0 : (i 0).val < 1024 := (i 0).isLt
  have h1 : (i 1).val < 51200 := (i 1).isLt
  have ht : (i 1).val / 2048 < cfg2.N := by show (i 1).val / 2048 < 25; omega
  obtain ⟨-, -, -, -, e20, e21⟩ := scoreBlockIndices ⟨(i 1).val / 2048, ht⟩
  have e21' : win2_2.index ⟨(i 1).val / 2048, ht⟩ (1 : Fin 2) = (i 1).val / 2048 := e21
  refine ⟨⟨(i 1).val / 2048, ht⟩, flush2_2 _, ?_⟩
  rw [mem_scoreBlock]
  intro a
  match a with
  | ⟨0, _⟩ =>
    show win2_2.index ⟨(i 1).val / 2048, ht⟩ (0 : Fin 2) * 1024 ≤ (i 0).val
      ∧ (i 0).val < win2_2.index ⟨(i 1).val / 2048, ht⟩ (0 : Fin 2) * 1024 + 1024
    rw [e20]; omega
  | ⟨1, _⟩ =>
    show win2_2.index ⟨(i 1).val / 2048, ht⟩ (1 : Fin 2) * 2048 ≤ (i 1).val
      ∧ (i 1).val < win2_2.index ⟨(i 1).val / 2048, ht⟩ (1 : Fin 2) * 2048 + 2048
    rw [e21']; omega

/-- THE OUTPUT ARRAY after the region: `scoreAll` of the query array and the padded entity array, everywhere. -/
theorem scoreRegion_array (c : Dev nD) :
    (dat2 (F := Ideal) V c).arrAt 2 cfg2.N = scoreAll (V c main_v79) (V c main_v80) :=
  (dat2 (F := Ideal) V c).arrAt_eq_of_cover 2 _ (fun t _ => scoreFlushed_eq V c t) scoreBlocks_cover

/-! ## The slice: the padding is never read -/

/-- The kept columns of the scoring region's output: where the region's second operand is an entity array padded with
    1200 rows of any value, the first 50000 columns of its output are the scores of the queries against that
    entity array. -/
theorem region2_sliced (c : Dev nD) (E : (⟨S50000x128, .f32⟩ : BufTy).Contents (Elt Ideal))
    (pv : (⟨S_, .f32⟩ : BufTy).Contents (Elt Ideal))
    (h80 : V c main_v80 = pad S51200x128 ![0, 0] ![1200, 0] ![0, 0] E pv pads_S50000x128_S51200x128_012000_000 h_S_) :
    extractStridedSlice S1024x50000 ![0, 0] ((dat2 (F := Ideal) V c).arrAt 2 cfg2.N) slices_S1024x51200_S1024x50000_0_0
      = Cert.Spec.score (V c main_v79) E := by
  rw [scoreRegion_array V c, h80]
  funext j
  obtain ⟨b, n, rfl⟩ : ∃ (b : Fin 1024) (n : Fin 50000), j = ix2 b n := ⟨j 0, j 1, eq_ix2 j⟩
  have hn : n.val < 51200 := by have := n.isLt; omega
  -- entry (b, n) of the slice is entry (b, n) of the 1024 × 51200 array
  refine (extractStridedSlice_apply _ _ _ (ix2 b n) (ix2 b ⟨n.val, hn⟩) fun a => ?_).trans ?_
  · match a with
    | ⟨0, _⟩ => show b.val = 0 + b.val; omega
    | ⟨1, _⟩ => show n.val = 0 + n.val; omega
  -- and row n < 50000 of the padded entity array is row n of the entity array
  show FloatOps.logistic (F := Ideal) (φ := .f32) _ = FloatOps.logistic (F := Ideal) (φ := .f32) _
  refine congrArg _ (Finset.sum_congr rfl fun k _ => ?_)
  refine congrArg₂ (· * ·) rfl ?_
  refine pad_apply_of_inside _ _ _ E pv _ _ (ix2 ⟨n.val, hn⟩ k) (ix2 n k) fun a => ?_
  match a with
  | ⟨0, _⟩ => show n.val = 0 + n.val * (0 + 1); omega
  | ⟨1, _⟩ => show k.val = 0 + k.val * (0 + 1); omega

end Cert.KernelIdeal.RegionValue

end
-- ==== Proof.HostChain.lean ====
/-
  The host operations between the kernel's regions are, line for line, the reference's own: the index normalisation and
  row gathers, the scaling of the gathered rows by the edge values and their scatter-add into the 50000 rows, the
  bias and the rectifier, the shortcut addition, the two batch-norm scalings, the relation rows times the core matrix.
  So each stretch, run from contents that hold the reference's value at the one buffer a region wrote and the launch
  contents at the arguments, leaves the reference's value at its own result: the two terms are one composition of the
  same operations. Only the end differs: the kernel pads the entity array with 1200 rows where the reference
  transposes it, and slices its scores where the reference computes exactly the kept ones.

  Every lemma is stated over ANY contents `V` the stretch starts from, with one hypothesis per buffer it reads. The
  rectifier and the padding are small functions called from the main program; each is read once here, by itself, as
  the plain operation it is.
-/
import proofs.«178771_j40802189312754_1_alg».proof.Proof.Gen.KernelIdeal.Launch
import proofs.«178771_j40802189312754_1_alg».proof.Proof.Gen.ReferenceIdeal.Read
import Idealize.ShloMosaic.Lib.StableHlo.Run
import Idealize.ShloMosaic.PureOps.Ideal

set_option maxRecDepth 16384

noncomputable section

namespace Cert.KernelIdeal.HostChain

open Cert.KernelIdeal Cert.KernelIdeal.Gen
open Idealize.ShloMosaic Idealize.ShloMosaic.TcCoe Idealize.ShloMosaic.StableHlo Idealize.SL.Sem

variable (V : Valuation τ sig (Elt Ideal))

/-! ## The small called functions, each by itself -/

/-- The rectifier after the first bias: the maximum with the zero splat. -/
theorem relu_first :
    StableHlo.after hostOps1_1 V (Proc.devRef .tc main_v24)
      = maximumf (V (Proc.devRef .tc main_v23))
          (broadcastInDim S50000x128 ![] bcast_S_S50000x128 (constant (F := Ideal) S_ .f32 0x00000000#32)) := by
  after_results_simp
  rfl

/-- The rectifier after the second bias: the maximum with the zero splat. -/
theorem relu_second :
    StableHlo.after hostOps2_1 V (Proc.devRef .tc main_v42)
      = maximumf (V (Proc.devRef .tc main_v41))
          (broadcastInDim S50000x128 ![] bcast_S_S50000x128 (constant (F := Ideal) S_ .f32 0x00000000#32)) := by
  after_results_simp
  rfl

/-- The padding: the entity array with 1200 rows of one scalar appended. -/
theorem padded :
    StableHlo.after hostOps2_3 V (Proc.devRef .tc main_v80)
      = pad S51200x128 ![0, 0] ![1200, 0] ![0, 0] (V (Proc.devRef .tc main_v43))
          (sitofp (F := Ideal) .f32 (V (Proc.devRef .tc main_c_12))) pads_S50000x128_S51200x128_012000_000 h_S_ := by
  after_results_simp
  rfl

/-- The padding leaves the queries as they were. -/
theorem padded_keeps_queries :
    StableHlo.after hostOps2_3 V (Proc.devRef .tc main_v79) = V (Proc.devRef .tc main_v79) := by
  after_results_simp

/-- The last operation keeps the first 50000 columns of the scores. -/
theorem sliced :
    StableHlo.after hostOps3 V (Proc.devRef .tc main_v82)
      = extractStridedSlice S1024x50000 ![0, 0] (V (Proc.devRef .tc main_v81)) slices_S1024x51200_S1024x50000_0_0 := by
  after_results_simp

/-! ## The long stretches: the reference's own operations -/

/-- The first stretch gathers the entity rows the index array names: the reference's gathered rows. -/
theorem gathered_rows (a0 : (⟨S50000x128, .f32⟩ : BufTy).Contents (Elt Ideal)) (a14 : (⟨S50000, .i32⟩ : BufTy).Contents (Elt Ideal)) (h0 : V (Proc.devRef .tc main_arg0) = a0) (h14 : V (Proc.devRef .tc main_arg14) = a14) :
    StableHlo.after hostOps0 V (Proc.devRef .tc main_v6) = Cert.ReferenceIdeal.Read.val_main_v6 (F := Ideal) a0 a14 := by
  after_results_simp
  rw [h0, h14]
  simp only [Cert.ReferenceIdeal.Read.val_main_c, Cert.ReferenceIdeal.Read.val_main_v0, Cert.ReferenceIdeal.Read.val_main_v1, Cert.ReferenceIdeal.Read.val_main_c_0, Cert.ReferenceIdeal.Read.val_main_v2, Cert.ReferenceIdeal.Read.val_main_v3, Cert.ReferenceIdeal.Read.val_main_v4, Cert.ReferenceIdeal.Read.val_main_v5, Cert.ReferenceIdeal.Read.val_main_v6]
  rfl

set_option maxHeartbeats 2000000 in
/-- The stretch after the first region: from the first projection, the first layer's activations. -/
theorem first_layer (a0 : (⟨S50000x128, .f32⟩ : BufTy).Contents (Elt Ideal)) (a2 : (⟨S128x128, .f32⟩ : BufTy).Contents (Elt Ideal)) (a3 : (⟨S128, .f32⟩ : BufTy).Contents (Elt Ideal)) (a7 : (⟨S800000, .f32⟩ : BufTy).Contents (Elt Ideal)) (a14 : (⟨S50000, .i32⟩ : BufTy).Contents (Elt Ideal)) (a15 : (⟨S800000, .i32⟩ : BufTy).Contents (Elt Ideal)) (a16 : (⟨S800000, .i32⟩ : BufTy).Contents (Elt Ideal))
    (h7v : V (Proc.devRef .tc main_v7) = Cert.ReferenceIdeal.Read.val_main_v7 (F := Ideal) a0 a2 a14)
    (h3 : V (Proc.devRef .tc main_arg3) = a3) (h7 : V (Proc.devRef .tc main_arg7) = a7) (h15 : V (Proc.devRef .tc main_arg15) = a15) (h16 : V (Proc.devRef .tc main_arg16) = a16) :
    StableHlo.after hostOps1_1 (StableHlo.after hostOps1 V) (Proc.devRef .tc main_v24)
      = Cert.ReferenceIdeal.Read.val_main_v24 (F := Ideal) a0 a2 a3 a7 a14 a15 a16 := by
  rw [relu_first]
  after_results_simp
  rw [h7v, h3, h7, h15, h16]
  simp only [Cert.ReferenceIdeal.Read.val_main_c_1, Cert.ReferenceIdeal.Read.val_main_v8, Cert.ReferenceIdeal.Read.val_main_v9, Cert.ReferenceIdeal.Read.val_main_c_2, Cert.ReferenceIdeal.Read.val_main_v10, Cert.ReferenceIdeal.Read.val_main_v11, Cert.ReferenceIdeal.Read.val_main_v12, Cert.ReferenceIdeal.Read.val_main_v13, Cert.ReferenceIdeal.Read.val_main_v14, Cert.ReferenceIdeal.Read.val_main_v15, Cert.ReferenceIdeal.Read.val_main_v16, Cert.ReferenceIdeal.Read.val_main_v17, Cert.ReferenceIdeal.Read.val_main_cst, Cert.ReferenceIdeal.Read.val_main_v18, Cert.ReferenceIdeal.Read.val_main_v19, Cert.ReferenceIdeal.Read.val_main_v20, Cert.ReferenceIdeal.Read.val_main_v21, Cert.ReferenceIdeal.Read.val_main_v22, Cert.ReferenceIdeal.Read.val_main_v23, Cert.ReferenceIdeal.Read.val_main_call0_cst, Cert.ReferenceIdeal.Read.val_main_call0_v0, Cert.ReferenceIdeal.Read.val_main_v24]
  rfl

set_option maxHeartbeats 2000000 in
/-- The stretch after the second region, up to the second bias: from the second projection, the sum the second
    rectifier takes. -/
theorem second_sum (a0 : (⟨S50000x128, .f32⟩ : BufTy).Contents (Elt Ideal)) (a2 : (⟨S128x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a7 : (⟨S800000, .f32⟩ : BufTy).Contents (Elt Ideal)) (a14 : (⟨S50000, .i32⟩ : BufTy).Contents (Elt Ideal)) (a15 : (⟨S800000, .i32⟩ : BufTy).Contents (Elt Ideal)) (a16 : (⟨S800000, .i32⟩ : BufTy).Contents (Elt Ideal))
    (h25v : V (Proc.devRef .tc main_v25) = Cert.ReferenceIdeal.Read.val_main_v25 (F := Ideal) a0 a2 a3 a4 a7 a14 a15 a16)
    (h5 : V (Proc.devRef .tc main_arg5) = a5) (h7 : V (Proc.devRef .tc main_arg7) = a7) (h15 : V (Proc.devRef .tc main_arg15) = a15) (h16 : V (Proc.devRef .tc main_arg16) = a16) :
    StableHlo.after hostOps2 V (Proc.devRef .tc main_v41) = Cert.ReferenceIdeal.Read.val_main_v41 (F := Ideal) a0 a2 a3 a4 a5 a7 a14 a15 a16 := by
  after_results_simp
  rw [h25v, h5, h7, h15, h16]
  simp only [Cert.ReferenceIdeal.Read.val_main_c_3, Cert.ReferenceIdeal.Read.val_main_v26, Cert.ReferenceIdeal.Read.val_main_v27, Cert.ReferenceIdeal.Read.val_main_c_4, Cert.ReferenceIdeal.Read.val_main_v28, Cert.ReferenceIdeal.Read.val_main_v29, Cert.ReferenceIdeal.Read.val_main_v30, Cert.ReferenceIdeal.Read.val_main_v31, Cert.ReferenceIdeal.Read.val_main_v32, Cert.ReferenceIdeal.Read.val_main_v33, Cert.ReferenceIdeal.Read.val_main_v34, Cert.ReferenceIdeal.Read.val_main_v35, Cert.ReferenceIdeal.Read.val_main_cst_5, Cert.ReferenceIdeal.Read.val_main_v36, Cert.ReferenceIdeal.Read.val_main_v37, Cert.ReferenceIdeal.Read.val_main_v38, Cert.ReferenceIdeal.Read.val_main_v39, Cert.ReferenceIdeal.Read.val_main_v40, Cert.ReferenceIdeal.Read.val_main_v41]
  rfl

/-- The shortcut: the gathered entity rows plus the second layer's activations. -/
theorem entity_sum (a0 : (⟨S50000x128, .f32⟩ : BufTy).Contents (Elt Ideal)) (a2 : (⟨S128x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a7 : (⟨S800000, .f32⟩ : BufTy).Contents (Elt Ideal)) (a14 : (⟨S50000, .i32⟩ : BufTy).Contents (Elt Ideal)) (a15 : (⟨S800000, .i32⟩ : BufTy).Contents (Elt Ideal)) (a16 : (⟨S800000, .i32⟩ : BufTy).Contents (Elt Ideal))
    (h6v : V (Proc.devRef .tc main_v6) = Cert.ReferenceIdeal.Read.val_main_v6 (F := Ideal) a0 a14)
    (h42v : V (Proc.devRef .tc main_v42) = Cert.ReferenceIdeal.Read.val_main_v42 (F := Ideal) a0 a2 a3 a4 a5 a7 a14 a15 a16) :
    StableHlo.after hostOps2_2 V (Proc.devRef .tc main_v43) = Cert.ReferenceIdeal.Read.val_main_v43 (F := Ideal) a0 a2 a3 a4 a5 a7 a14 a15 a16 := by
  after_results_simp
  rw [h6v, h42v]
  simp only [Cert.ReferenceIdeal.Read.val_main_v43]

set_option maxHeartbeats 8000000 in
/-- The query rows: the entity rows of the batch's heads, scaled and shifted, times the relation rows through the core
    matrix, scaled and shifted again. -/
theorem queries (a0 : (⟨S50000x128, .f32⟩ : BufTy).Contents (Elt Ideal)) (a1 : (⟨S500x128, .f32⟩ : BufTy).Contents (Elt Ideal)) (a2 : (⟨S128x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S128x128, .f32⟩ : BufTy).Contents (Elt Ideal)) (a7 : (⟨S800000, .f32⟩ : BufTy).Contents (Elt Ideal)) (a8 : (⟨S128, .f32⟩ : BufTy).Contents (Elt Ideal)) (a9 : (⟨S128, .f32⟩ : BufTy).Contents (Elt Ideal)) (a10 : (⟨S128, .f32⟩ : BufTy).Contents (Elt Ideal)) (a11 : (⟨S128, .f32⟩ : BufTy).Contents (Elt Ideal)) (a12 : (⟨S1024, .i32⟩ : BufTy).Contents (Elt Ideal)) (a13 : (⟨S1024, .i32⟩ : BufTy).Contents (Elt Ideal)) (a14 : (⟨S50000, .i32⟩ : BufTy).Contents (Elt Ideal)) (a15 : (⟨S800000, .i32⟩ : BufTy).Contents (Elt Ideal)) (a16 : (⟨S800000, .i32⟩ : BufTy).Contents (Elt Ideal))
    (h6v : V (Proc.devRef .tc main_v6) = Cert.ReferenceIdeal.Read.val_main_v6 (F := Ideal) a0 a14)
    (h42v : V (Proc.devRef .tc main_v42) = Cert.ReferenceIdeal.Read.val_main_v42 (F := Ideal) a0 a2 a3 a4 a5 a7 a14 a15 a16)
    (h1 : V (Proc.devRef .tc main_arg1) = a1) (h6 : V (Proc.devRef .tc main_arg6) = a6) (h8 : V (Proc.devRef .tc main_arg8) = a8) (h9 : V (Proc.devRef .tc main_arg9) = a9) (h10 : V (Proc.devRef .tc main_arg10) = a10) (h11 : V (Proc.devRef .tc main_arg11) = a11) (h12 : V (Proc.devRef .tc main_arg12) = a12) (h13 : V (Proc.devRef .tc main_arg13) = a13) :
    StableHlo.after hostOps2_2 V (Proc.devRef .tc main_v79) = Cert.ReferenceIdeal.Read.val_main_v79 (F := Ideal) a0 a1 a2 a3 a4 a5 a6 a7 a8 a9 a10 a11 a12 a13 a14 a15 a16 := by
  after_results_simp
  rw [h6v, h42v, h1, h6, h8, h9, h10, h11, h12, h13]
  simp only [Cert.ReferenceIdeal.Read.val_main_v43, Cert.ReferenceIdeal.Read.val_main_c_6, Cert.ReferenceIdeal.Read.val_main_v44, Cert.ReferenceIdeal.Read.val_main_v45, Cert.ReferenceIdeal.Read.val_main_c_7, Cert.ReferenceIdeal.Read.val_main_v46, Cert.ReferenceIdeal.Read.val_main_v47, Cert.ReferenceIdeal.Read.val_main_v48, Cert.ReferenceIdeal.Read.val_main_v49, Cert.ReferenceIdeal.Read.val_main_v50, Cert.ReferenceIdeal.Read.val_main_cst_8, Cert.ReferenceIdeal.Read.val_main_v51, Cert.ReferenceIdeal.Read.val_main_v52, Cert.ReferenceIdeal.Read.val_main_v53, Cert.ReferenceIdeal.Read.val_main_v54, Cert.ReferenceIdeal.Read.val_main_v55, Cert.ReferenceIdeal.Read.val_main_v56, Cert.ReferenceIdeal.Read.val_main_v57, Cert.ReferenceIdeal.Read.val_main_v58, Cert.ReferenceIdeal.Read.val_main_v59, Cert.ReferenceIdeal.Read.val_main_v60, Cert.ReferenceIdeal.Read.val_main_c_9, Cert.ReferenceIdeal.Read.val_main_v61, Cert.ReferenceIdeal.Read.val_main_v62, Cert.ReferenceIdeal.Read.val_main_c_10, Cert.ReferenceIdeal.Read.val_main_v63, Cert.ReferenceIdeal.Read.val_main_v64, Cert.ReferenceIdeal.Read.val_main_v65, Cert.ReferenceIdeal.Read.val_main_v66, Cert.ReferenceIdeal.Read.val_main_v67, Cert.ReferenceIdeal.Read.val_main_v68, Cert.ReferenceIdeal.Read.val_main_v69, Cert.ReferenceIdeal.Read.val_main_cst_11, Cert.ReferenceIdeal.Read.val_main_v70, Cert.ReferenceIdeal.Read.val_main_v71, Cert.ReferenceIdeal.Read.val_main_v72, Cert.ReferenceIdeal.Read.val_main_v73, Cert.ReferenceIdeal.Read.val_main_v74, Cert.ReferenceIdeal.Read.val_main_v75, Cert.ReferenceIdeal.Read.val_main_v76, Cert.ReferenceIdeal.Read.val_main_v77, Cert.ReferenceIdeal.Read.val_main_v78, Cert.ReferenceIdeal.Read.val_main_v79]
  rfl

end Cert.KernelIdeal.HostChain

end
-- ==== Proof.RefRead.lean ====
/-
  The reference's three matrix products, read as the two whole-array functions the kernel's regions compute.

  Its first two are a 50000 × 128 array times a 128 × 128 matrix: entry (r, j) is the sum over k of the left operand at
  (r, k) times the right at (k, j). Its last contracts the 1024 × 128 queries with the TRANSPOSE of the 50000 × 128
  entity array, so entry (b, n) is the inner product of query row b and entity row n; the four operations after it
  spell 1 / (1 + e^(−s)), which on every extended real is the logistic function of s.
-/
import proofs.«178771_j40802189312754_1_alg».proof.Proof.Gen.ReferenceIdeal.Run
import proofs.«178771_j40802189312754_1_alg».proof.Proof.Gen.ReferenceIdeal.Read
import proofs.«178771_j40802189312754_1_alg».proof.Proof.Spec

open scoped BigOperators

noncomputable section

namespace Cert.ReferenceIdeal.RefValue

open Cert.ReferenceIdeal Cert.ReferenceIdeal.Read Idealize.ShloMosaic Idealize.ShloMosaic.ValueIdx

/-- The word of 1.0 denotes the extended real 1. -/
theorem ofBits_one : Ideal.ofBits .f32 0x3F800000#32 = 1 := by
  simp [Ideal.ofBits, Ideal.ieee, -EReal.coe_mul]; norm_num

/-- The first projection is the product of the gathered entity rows by the first weight matrix. -/
theorem v7_rowsTimes (x0 : (⟨S50000x128, .f32⟩ : BufTy).Contents (Elt Ideal)) (x2 : (⟨S128x128, .f32⟩ : BufTy).Contents (Elt Ideal))
    (x14 : (⟨S50000, .i32⟩ : BufTy).Contents (Elt Ideal)) :
    val_main_v7 (F := Ideal) x0 x2 x14 = Cert.Spec.rowsTimes (val_main_v6 (F := Ideal) x0 x14) x2 := by
  funext i
  rw [val_main_v7_apply]
  unfold Cert.Spec.rowsTimes
  refine Finset.sum_congr rfl fun k _ => ?_
  have el : lidx_main_v7 i k = ix2 (i 0) k := funext fun a => Fin.ext (by
    match a with
    | ⟨0, _⟩ => rfl
    | ⟨1, _⟩ => rfl)
  have er : ridx_main_v7 i k = ix2 k (i 1) := funext fun a => Fin.ext (by
    match a with
    | ⟨0, _⟩ => rfl
    | ⟨1, _⟩ => rfl)
  rw [el, er]
  rfl

/-- The second projection is the product of the first layer's activations by the second weight matrix. -/
theorem v25_rowsTimes (x0 : (⟨S50000x128, .f32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal))
    (x7 : (⟨S800000, .f32⟩ : BufTy).Contents (Elt Ideal)) (x14 : (⟨S50000, .i32⟩ : BufTy).Contents (Elt Ideal))
    (x15 x16 : (⟨S800000, .i32⟩ : BufTy).Contents (Elt Ideal)) :
    val_main_v25 (F := Ideal) x0 x2 x3 x4 x7 x14 x15 x16
      = Cert.Spec.rowsTimes (val_main_v24 (F := Ideal) x0 x2 x3 x7 x14 x15 x16) x4 := by
  funext i
  rw [val_main_v25_apply]
  unfold Cert.Spec.rowsTimes
  refine Finset.sum_congr rfl fun k _ => ?_
  have el : lidx_main_v25 i k = ix2 (i 0) k := funext fun a => Fin.ext (by
    match a with
    | ⟨0, _⟩ => rfl
    | ⟨1, _⟩ => rfl)
  have er : ridx_main_v25 i k = ix2 k (i 1) := funext fun a => Fin.ext (by
    match a with
    | ⟨0, _⟩ => rfl
    | ⟨1, _⟩ => rfl)
  rw [el, er]
  rfl

/-- The result is the scores of the queries against the entity array: the product with the transpose is the inner
    product of a query row and an entity row, and 1 / (1 + e^(−s)) is the logistic function of s. -/
theorem v87_score (x0 : (⟨S50000x128, .f32⟩ : BufTy).Contents (Elt Ideal)) (x1 : (⟨S500x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S800000, .f32⟩ : BufTy).Contents (Elt Ideal)) (x8 x9 x10 x11 : (⟨S128, .f32⟩ : BufTy).Contents (Elt Ideal)) (x12 x13 : (⟨S1024, .i32⟩ : BufTy).Contents (Elt Ideal)) (x14 : (⟨S50000, .i32⟩ : BufTy).Contents (Elt Ideal)) (x15 x16 : (⟨S800000, .i32⟩ : BufTy).Contents (Elt Ideal)) :
    val_main_v87 (F := Ideal) x0 x1 x2 x3 x4 x5 x6 x7 x8 x9 x10 x11 x12 x13 x14 x15 x16
      = Cert.Spec.score (val_main_v79 (F := Ideal) x0 x1 x2 x3 x4 x5 x6 x7 x8 x9 x10 x11 x12 x13 x14 x15 x16) (val_main_v43 (F := Ideal) x0 x2 x3 x4 x5 x7 x14 x15 x16) := by
  funext i
  rw [val_main_v87_apply, val_main_v86_apply, val_main_v85_apply, val_main_v84_apply, val_main_v83_apply,
    val_main_v82_apply, val_main_v81_apply]
  unfold Cert.Spec.score
  have hs : (∑ k : Fin 128, val_main_v79 (F := Ideal) x0 x1 x2 x3 x4 x5 x6 x7 x8 x9 x10 x11 x12 x13 x14 x15 x16 (lidx_main_v81 i k)
        * val_main_v80 (F := Ideal) x0 x2 x3 x4 x5 x7 x14 x15 x16 (ridx_main_v81 i k))
      = ∑ k : Fin 128, val_main_v79 (F := Ideal) x0 x1 x2 x3 x4 x5 x6 x7 x8 x9 x10 x11 x12 x13 x14 x15 x16 (ix2 (i 0) k)
        * val_main_v43 (F := Ideal) x0 x2 x3 x4 x5 x7 x14 x15 x16 (ix2 (i 1) k) := by
    refine Finset.sum_congr rfl fun k _ => ?_
    rw [val_main_v80_apply]
    have el : lidx_main_v81 i k = ix2 (i 0) k := funext fun a => Fin.ext (by
      match a with
      | ⟨0, _⟩ => rfl
      | ⟨1, _⟩ => rfl)
    have er : idx_main_v80 (ridx_main_v81 i k) = ix2 (i 1) k := funext fun a => Fin.ext (by
      match a with
      | ⟨0, _⟩ => rfl
      | ⟨1, _⟩ => rfl)
    rw [el, er]
    rfl
  rw [hs]
  have h13 : val_main_cst_13 (F := Ideal) (idx_main_v86 i) = (1 : Ideal .f32) := ofBits_one
  have h12 : val_main_cst_12 (F := Ideal) (idx_main_v84 i) = (1 : Ideal .f32) := ofBits_one
  rw [h13, h12]
  rfl

end Cert.ReferenceIdeal.RefValue

end
-- ==== Proof.KernelValue.lean ====
/-
  The kernel's result, read back through the run. The buffer contents at each boundary are a fold from the launch
  memory; walking it forward, each buffer a region or a host stretch writes holds the value the reference computes at
  the same place: the gathered entity rows; their product with the first weights (the first region); the first layer's
  activations; their product with the second weights (the second region); the entity array after the shortcut and the
  query rows; and, after the scoring region and the slice, the logistic function of every query's inner product with
  every entity row, which is the reference's result.
-/
import proofs.«178771_j40802189312754_1_alg».proof.Proof.Gen.KernelIdeal.Frame
import proofs.«178771_j40802189312754_1_alg».proof.Proof.Walk
import proofs.«178771_j40802189312754_1_alg».proof.Proof.Region01
import proofs.«178771_j40802189312754_1_alg».proof.Proof.Region2
import proofs.«178771_j40802189312754_1_alg».proof.Proof.HostChain
import proofs.«178771_j40802189312754_1_alg».proof.Proof.RefRead

set_option maxRecDepth 16384

noncomputable section

namespace Cert.KernelIdeal.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- After the first host stretch: the gathered entity rows. -/
theorem gathered (c : Dev nD) :
    W1 m ρ c (Proc.devRef .tc main_v6) = Cert.ReferenceIdeal.Read.val_main_v6 (F := Ideal) (m ((c : Thread nD τ).loc main_arg0)) (m ((c : Thread nD τ).loc main_arg14)) :=
  HostChain.gathered_rows (W0 m ρ c) _ _ rfl rfl

/-- After the first region: the first projection. -/
theorem projected_first (c : Dev nD) :
    W2 m ρ c (Proc.devRef .tc main_v7) = Cert.ReferenceIdeal.Read.val_main_v7 (F := Ideal) (m ((c : Thread nD τ).loc main_arg0)) (m ((c : Thread nD τ).loc main_arg2)) (m ((c : Thread nD τ).loc main_arg14)) :=
  ((W2_arr m ρ c 2).trans (RegionValue.region0_array (V1 m ρ) c)).trans
    ((congr (congrArg Cert.Spec.rowsTimes (gathered m ρ c)) (W1_main_arg2 m ρ c)).trans
      (Cert.ReferenceIdeal.RefValue.v7_rowsTimes _ _ _).symm)

/-- At the second region's entry: the first layer's activations. -/
theorem activations_first (c : Dev nD) :
    W4 m ρ c (Proc.devRef .tc main_v24) = Cert.ReferenceIdeal.Read.val_main_v24 (F := Ideal) (m ((c : Thread nD τ).loc main_arg0)) (m ((c : Thread nD τ).loc main_arg2)) (m ((c : Thread nD τ).loc main_arg3)) (m ((c : Thread nD τ).loc main_arg7)) (m ((c : Thread nD τ).loc main_arg14)) (m ((c : Thread nD τ).loc main_arg15)) (m ((c : Thread nD τ).loc main_arg16)) :=
  HostChain.first_layer (W2 m ρ c) _ _ _ _ _ _ _ (projected_first m ρ c)
    (W2_main_arg3 m ρ c) (W2_main_arg7 m ρ c) (W2_main_arg15 m ρ c) (W2_main_arg16 m ρ c)

/-- After the second region: the second projection. -/
theorem projected_second (c : Dev nD) :
    W5 m ρ c (Proc.devRef .tc main_v25) = Cert.ReferenceIdeal.Read.val_main_v25 (F := Ideal) (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg14)) (m ((c : Thread nD τ).loc main_arg15)) (m ((c : Thread nD τ).loc main_arg16)) :=
  ((W5_arr m ρ c 2).trans (RegionValue.region1_array (V4 m ρ) c)).trans
    ((congr (congrArg Cert.Spec.rowsTimes (activations_first m ρ c)) (W4_main_arg4 m ρ c)).trans
      (Cert.ReferenceIdeal.RefValue.v25_rowsTimes _ _ _ _ _ _ _ _).symm)

/-- The sum the second rectifier takes. -/
theorem sum_second (c : Dev nD) :
    W6 m ρ c (Proc.devRef .tc main_v41) = Cert.ReferenceIdeal.Read.val_main_v41 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg14)) (m ((c : Thread nD τ).loc main_arg15)) (m ((c : Thread nD τ).loc main_arg16)) :=
  HostChain.second_sum (W5 m ρ c) _ _ _ _ _ _ _ _ _ (projected_second m ρ c)
    (W5_main_arg5 m ρ c) (W5_main_arg7 m ρ c) (W5_main_arg15 m ρ c) (W5_main_arg16 m ρ c)

/-- The second layer's activations: the reference's rectifier is the same maximum with the zero splat. -/
theorem activations_second (c : Dev nD) :
    W7 m ρ c (Proc.devRef .tc main_v42) = Cert.ReferenceIdeal.Read.val_main_v42 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg14)) (m ((c : Thread nD τ).loc main_arg15)) (m ((c : Thread nD τ).loc main_arg16)) :=
  (HostChain.relu_second (W6 m ρ c)).trans (by
    rw [sum_second m ρ c]
    simp only [Cert.ReferenceIdeal.Read.val_main_v42, Cert.ReferenceIdeal.Read.val_main_call1_v0, Cert.ReferenceIdeal.Read.val_main_call1_cst])

/-- The gathered entity rows are still there when the shortcut reads them again. -/
theorem gathered_again (c : Dev nD) :
    W7 m ρ c (Proc.devRef .tc main_v6) = Cert.ReferenceIdeal.Read.val_main_v6 (F := Ideal) (m ((c : Thread nD τ).loc main_arg0)) (m ((c : Thread nD τ).loc main_arg14)) :=
  (W7_main_v6 m ρ c).trans (gathered m ρ c)

/-- The entity array after the shortcut. -/
theorem entities (c : Dev nD) :
    W8 m ρ c (Proc.devRef .tc main_v43) = Cert.ReferenceIdeal.Read.val_main_v43 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg14)) (m ((c : Thread nD τ).loc main_arg15)) (m ((c : Thread nD τ).loc main_arg16)) :=
  HostChain.entity_sum (W7 m ρ c) _ _ _ _ _ _ _ _ _ (gathered_again m ρ c) (activations_second m ρ c)

/-- The query rows, at the scoring region's entry (the padding does not touch them). -/
theorem query_rows (c : Dev nD) :
    W9 m ρ c (Proc.devRef .tc main_v79) = Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (HostChain.padded_keeps_queries (W8 m ρ c)).trans
    (HostChain.queries (W7 m ρ c) _ _ _ _ _ _ _ _ _ _ _ _ _ _ _ _ _ (gathered_again m ρ c) (activations_second m ρ c)
      (W7_main_arg1 m ρ c) (W7_main_arg6 m ρ c) (W7_main_arg8 m ρ c) (W7_main_arg9 m ρ c) (W7_main_arg10 m ρ c)
      (W7_main_arg11 m ρ c) (W7_main_arg12 m ρ c) (W7_main_arg13 m ρ c))

/-- The scoring region's second operand: the entity array with 1200 rows of one scalar appended. -/
theorem entities_padded (c : Dev nD) :
    W9 m ρ c (Proc.devRef .tc main_v80)
      = pad S51200x128 ![0, 0] ![1200, 0] ![0, 0] (Cert.ReferenceIdeal.Read.val_main_v43 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg14)) (m ((c : Thread nD τ).loc main_arg15)) (m ((c : Thread nD τ).loc main_arg16)))
          (sitofp (F := Ideal) .f32 (W8 m ρ c (Proc.devRef .tc main_c_12))) pads_S50000x128_S51200x128_012000_000 h_S_ :=
  (HostChain.padded (W8 m ρ c)).trans
    (congrArg (fun E : (⟨S50000x128, .f32⟩ : BufTy).Contents (Elt Ideal) =>
        pad S51200x128 ![0, 0] ![1200, 0] ![0, 0] E (sitofp (F := Ideal) .f32 (W8 m ρ c (Proc.devRef .tc main_c_12)))
          pads_S50000x128_S51200x128_012000_000 h_S_) (entities m ρ c))

/-- THE RESULT: after the scoring region and the slice, the result buffer holds the reference's result. -/
theorem result (c : Dev nD) :
    W11 m ρ c (Proc.devRef .tc main_v82) = Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (HostChain.sliced (W10 m ρ c)).trans
    ((congrArg (fun x : (⟨S1024x51200, .f32⟩ : BufTy).Contents (Elt Ideal) =>
        extractStridedSlice S1024x50000 ![0, 0] x slices_S1024x51200_S1024x50000_0_0) (W10_arr m ρ c 2)).trans
      ((RegionValue.region2_sliced (V9 m ρ) c _ _ (entities_padded m ρ c)).trans
        ((congrArg (fun Q : (⟨S1024x128, .f32⟩ : BufTy).Contents (Elt Ideal) =>
            Cert.Spec.score Q (Cert.ReferenceIdeal.Read.val_main_v43 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg14)) (m ((c : Thread nD τ).loc main_arg15)) (m ((c : Thread nD τ).loc main_arg16)))) (query_rows m ρ c)).trans
          (Cert.ReferenceIdeal.RefValue.v87_score _ _ _ _ _ _ _ _ _ _ _ _ _ _ _ _ _).symm)))

end Cert.KernelIdeal.KernelValue

end
-- ==== Proof.lean ====
/-
  A two-layer sparse graph convolution feeding a bilinear scoring head, as a Pallas program of three kernel regions
  against its jnp reference, over the extended reals.

  Both programs gather the entity rows the index array names; twice multiply a 50000 × 128 array by a 128 × 128 weight
  matrix, gather the product's rows at the edges' columns, scale them by the edge values, scatter-add them into the
  edges' rows, add a bias and rectify; add the gathered rows back; scale and shift the batch's head rows, multiply them
  by the relation rows through the core matrix, scale and shift again; and score every query row against every entity
  row by the logistic function of their inner product. The kernel program runs the two weight products and the scores
  as kernel regions over row blocks (bf16 operands, which at the ideal values are the operands themselves) and everything
  else as the same host operations the reference runs. The regions' blocks tile their arrays, a product accumulated
  into the zero splat is the plain sum over the 128 contracted columns, the kernel's logistic operation is the function
  the reference spells 1 / (1 + e^(−s)), and the 1200 padding rows the scoring region reads reach only the columns the
  last slice drops. So the two results agree entry by entry with no law beyond the reading of each operation; the
  precondition is not used.

  The three frames are the generated ones (the reference's is its generated run with the result dropped); the ideal
  pass rewrote nothing, so `preserves` is `True`.
-/
import proofs.«178771_j40802189312754_1_alg».proof.Defs
import proofs.«178771_j40802189312754_1_alg».proof.Proof.Gen.Kernel
import proofs.«178771_j40802189312754_1_alg».proof.Proof.Gen.Kernel.Frame
import proofs.«178771_j40802189312754_1_alg».proof.Proof.Gen.KernelIdeal
import proofs.«178771_j40802189312754_1_alg».proof.Proof.Gen.KernelIdeal.Frame
import proofs.«178771_j40802189312754_1_alg».proof.Proof.Gen.ReferenceIdeal
import proofs.«178771_j40802189312754_1_alg».proof.Proof.Gen.ReferenceIdeal.Run
import proofs.«178771_j40802189312754_1_alg».proof.Proof.Gen.ReferenceIdeal.Read
import proofs.«178771_j40802189312754_1_alg».proof.Proof.Gen.Pre_finite_inputs
import proofs.«178771_j40802189312754_1_alg».proof.Proof.KernelRun
import proofs.«178771_j40802189312754_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

set_option maxHeartbeats 4000000 in
/-- From memories that agree on the arguments both programs end with the scores of the reference's last stage at the
    kernel's arguments: the kernel's run read back boundary by boundary, the reference's its generated run. -/
theorem algebraic : Cert.algebraic_KernelIdeal_ReferenceIdeal := by
  intro m ρ m' ρ' _ hagree
  refine ⟨fun c => Cert.ReferenceIdeal.Read.val_main_v87 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.KernelValue.result m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    rw [Cert.ReferenceIdeal.Read.val_main_v87_eq, e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
